-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S100000 : Shape := ⟨1, ![100000]⟩
abbrev S5x16 : Shape := ⟨2, ![5, 16]⟩
abbrev S16 : Shape := ⟨1, ![16]⟩
abbrev S16x16 : Shape := ⟨2, ![16, 16]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x16 : S_.BroadcastsInDim S5x16 (![] : Fin 0 → Fin S5x16.rank)
  reducesTo_S5x16_S_d0_1 : S5x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg6 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x5 .f32) (main_arg1 : IVec S2x3200000 32) (main_arg2 : IVec S100000 32) (main_arg3 : FVec F S5x16 .f32) (main_arg4 : FVec F S16 .f32) (main_arg5 : FVec F S16x16 .f32) (main_arg6 : FVec F S16 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x16 .f32 := Host.absf main_arg3
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_v13 main_v16
-- ==== Kernel.lean ====
abbrev S100000x5 : Shape := ⟨2, ![100000, 5]⟩
abbrev S2x3200000 : Shape := ⟨2, ![2, 3200000]⟩
abbrev S100000 : Shape := ⟨1, ![100000]⟩
abbrev S5x16 : Shape := ⟨2, ![5, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x5 : Shape := ⟨2, ![5000, 5]⟩
abbrev S5000x16 : Shape := ⟨2, ![5000, 16]⟩
abbrev S3300000x16 : Shape := ⟨2, ![3300000, 16]⟩
abbrev S1x16 : Shape := ⟨2, ![1, 16]⟩
abbrev S1x100000 : Shape := ⟨2, ![1, 100000]⟩
abbrev S102400x16 : Shape := ⟨2, ![102400, 16]⟩
abbrev S1x102400 : Shape := ⟨2, ![1, 102400]⟩
abbrev S512x16 : Shape := ⟨2, ![512, 16]⟩
abbrev S512x1 : Shape := ⟨2, ![512, 1]⟩
abbrev S2560x16 : Shape := ⟨2, ![2560, 16]⟩
abbrev S1x2560 : Shape := ⟨2, ![1, 2560]⟩
abbrev S512x2560 : Shape := ⟨2, ![512, 2560]⟩
abbrev S512 : Shape := ⟨1, ![512]⟩

abbrev nBuf : Space → Nat
  | .hbm => 99
  | .vmem => 26
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000, .i32⟩
  | .hbm, ⟨3, _⟩ => ⟨S5x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x1, .f32⟩
  | .hbm, ⟨77, _⟩ => ⟨S3300000x16, .f32⟩
  | .hbm, ⟨78, _⟩ => ⟨S3300000x16, .f32⟩
  | .hbm, ⟨79, _⟩ => ⟨S_, .f32⟩
  | .hbm, ⟨80, _⟩ => ⟨S100000x16, .f32⟩
  | .hbm, ⟨81, _⟩ => ⟨S3300000x1, .i32⟩
  | .hbm, ⟨82, _⟩ => ⟨S100000x16, .f32⟩
  | .hbm, ⟨83, _⟩ => ⟨S1x16, .f32⟩
  | .hbm, ⟨84, _⟩ => ⟨S100000x16, .f32⟩
  | .hbm, ⟨85, _⟩ => ⟨S1x100000, .i32⟩
  | .hbm, ⟨86, _⟩ => ⟨S_, .i32⟩
  | .hbm, ⟨87, _⟩ => ⟨S_, .f32⟩
  | .hbm, ⟨88, _⟩ => ⟨S102400x16, .f32⟩
  | .hbm, ⟨89, _⟩ => ⟨S_, .i32⟩
  | .hbm, ⟨90, _⟩ => ⟨S_, .i32⟩
  | .hbm, ⟨91, _⟩ => ⟨S1x102400, .i32⟩
  | .hbm, ⟨92, _⟩ => ⟨S512x16, .f32⟩
  | .hbm, ⟨93, _⟩ => ⟨S512x1, .f32⟩
  | .hbm, ⟨94, _⟩ => ⟨S_, .f32⟩
  | .hbm, ⟨95, _⟩ => ⟨S512x1, .f32⟩
  | .hbm, ⟨96, _⟩ => ⟨S512x1, .f32⟩
  | .hbm, ⟨97, _⟩ => ⟨S512x16, .f32⟩
  | .hbm, ⟨98, _⟩ => ⟨S512x16, .f32⟩
  | .local _ .vmem, ⟨0, _⟩ => ⟨S5000x5, .f32⟩
  | .local _ .vmem, ⟨1, _⟩ => ⟨S5000x5, .f32⟩
  | .local _ .vmem, ⟨2, _⟩ => ⟨S5x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | .local _ .vmem, ⟨20, _⟩ => ⟨S2560x16, .f32⟩
  | .local _ .vmem, ⟨21, _⟩ => ⟨S2560x16, .f32⟩
  | .local _ .vmem, ⟨22, _⟩ => ⟨S1x2560, .i32⟩
  | .local _ .vmem, ⟨23, _⟩ => ⟨S1x2560, .i32⟩
  | .local _ .vmem, ⟨24, _⟩ => ⟨S512x16, .f32⟩
  | .local _ .vmem, ⟨25, _⟩ => ⟨S512x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_call1_v0 : Ref sig .tc := ⟨.hbm, 87, rfl⟩
abbrev main_v63 : Ref sig .tc := ⟨.hbm, 88, rfl⟩
abbrev main_c_13 : Ref sig .tc := ⟨.hbm, 89, rfl⟩
abbrev main_call2_v0 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2560x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2560 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x16_S5x16_0_0 : ∀ a, (![0, 0] : Fin 2 → Nat) a + S5x16.size a ≤ S5x16.size a
  h_S5x16 : 0 < S5x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  shapeCasts_S100000_S1x100000 : S100000.ShapeCasts S1x100000
  pads_S100000x16_S102400x16_024000_000 : S100000x16.Pads (![0, 0] : Fin 2 → Nat) ![2400, 0] ![0, 0] S102400x16
  h_S_ : 0 < S_.numel
  pads_S1x100000_S1x102400_000_024000 : S1x100000.Pads (![0, 0] : Fin 2 → Nat) ![0, 2400] ![0, 0] S1x102400
  inb_S512x16_S512x16_0_0 : ∀ a, (![0, 0] : Fin 2 → Nat) a + S512x16.size a ≤ S512x16.size a
  h_S512x16 : 0 < S512x16.numel
  inb_S512x1_S512x1_0_0 : ∀ a, (![0, 0] : Fin 2 → Nat) a + S512x1.size a ≤ S512x1.size a
  h_S512x1 : 0 < S512x1.numel
  iota_S512x1_d0_w32 : S512x1.Iotas .tc 32 [0]
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S512x1_S512x2560 : S512x1.Broadcasts S512x2560
  broadcasts_S1x2560_S512x2560 : S1x2560.Broadcasts S512x2560
  natLt_1_32 : 1 < 32
  shapeCasts_S512x16_S512x16 : S512x16.ShapeCasts S512x16
  inb_S2560x16_S2560x16_0_0 : ∀ a, (![0, 0] : Fin 2 → Nat) a + S2560x16.size a ≤ S2560x16.size a
  h_S2560x16 : 0 < S2560x16.numel
  shapeCasts_S2560x16_S2560x16 : S2560x16.ShapeCasts S2560x16
  shapeCasts_S512x1_S512x1 : S512x1.ShapeCasts S512x1
  reduces_S512x2560_S512 : S512x2560.Reduces [1] S512
  shapeCasts_S512_S512x1 : S512.ShapeCasts S512x1
  bcast_S_S512x1 : S_.BroadcastsInDim S512x1 (![] : Fin 0 → Fin S512x1.rank)
  bcast_S512x1_S512x16_0_1 : S512x1.BroadcastsInDim S512x16 (![0, 1] : Fin 2 → Fin S512x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x5_S5x16_S5000x16_1_0_0_1_n_n_wf : DotDims.WF S5000x5 S5x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  dot_S512x2560_S2560x16_S512x16_1_0_0_1_n_n_wf : DotDims.WF S512x2560 S2560x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x16.size a ≤ S5x16.size a
  hwx0_1 : ∀ i : grid0.Coords, EltTy.bits .f32 = 32 ∨ (Rect.block (s := S5x16) S5x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2560x16.size a ≤ S102400x16.size a
  hwx4_0 : ∀ i : grid4.Coords, EltTy.bits .f32 = 32 ∨ (Rect.block (s := S102400x16) S2560x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2560.size a ≤ S1x102400.size a
  hwx4_1 : ∀ i : grid4.Coords, EltTy.bits .i32 = 32 ∨ (Rect.block (s := S1x102400) S1x2560.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x16.size a ≤ S512x16.size a
  hwx4_2 : ∀ i : grid4.Coords, EltTy.bits .f32 = 32 ∨ (Rect.block (s := S512x16) S512x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S512x1.size a
  hwx4_3 : ∀ i : grid4.Coords, EltTy.bits .f32 = 32 ∨ (Rect.block (s := S512x1) S512x1.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x5_S5x16_S5000x16_1_0_0_1_n_n : DotDims S5000x5 S5x16 S5000x16 where
  lhsContracting := [1]
  rhsContracting := [0]
  lhsNonContracting := [0]
  rhsNonContracting := [1]
  lhsBatch := []
  rhsBatch := []
  wf := dot_S5000x5_S5x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S512x2560_S2560x16_S512x16_1_0_0_1_n_n : DotDims S512x2560 S2560x16 S512x16 where
  lhsContracting := [1]
  rhsContracting := [0]
  lhsNonContracting := [0]
  rhsNonContracting := [1]
  lhsBatch := []
  rhsBatch := []
  wf := dot_S512x2560_S2560x16_S512x16_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2560x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x2560.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65_0) S512x16.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65_1) S512x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S100000 : Shape := ⟨1, ![100000]⟩
abbrev S5x16 : Shape := ⟨2, ![5, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S512x16 : Shape := ⟨2, ![512, 16]⟩
abbrev S100000x1 : Shape := ⟨2, ![100000, 1]⟩
abbrev S512 : Shape := ⟨1, ![512]⟩
abbrev S512x1 : Shape := ⟨2, ![512, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000, .i32⟩
  | .hbm, ⟨3, _⟩ => ⟨S5x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x16, .f32⟩
  | .hbm, ⟨80, _⟩ => ⟨S3300000x1, .f32⟩
  | .hbm, ⟨81, _⟩ => ⟨S3300000x16, .f32⟩
  | .hbm, ⟨82, _⟩ => ⟨S3300000x16, .f32⟩
  | .hbm, ⟨83, _⟩ => ⟨S_, .f32⟩
  | .hbm, ⟨84, _⟩ => ⟨S100000x16, .f32⟩
  | .hbm, ⟨85, _⟩ => ⟨S3300000x1, .i32⟩
  | .hbm, ⟨86, _⟩ => ⟨S100000x16, .f32⟩
  | .hbm, ⟨87, _⟩ => ⟨S1x16, .f32⟩
  | .hbm, ⟨88, _⟩ => ⟨S100000x16, .f32⟩
  | .hbm, ⟨89, _⟩ => ⟨S100000x16, .f32⟩
  | .hbm, ⟨90, _⟩ => ⟨S_, .f32⟩
  | .hbm, ⟨91, _⟩ => ⟨S100000x16, .f32⟩
  | .hbm, ⟨92, _⟩ => ⟨S100000x16, .f32⟩
  | .hbm, ⟨93, _⟩ => ⟨S_, .f32⟩
  | .hbm, ⟨94, _⟩ => ⟨S512x16, .f32⟩
  | .hbm, ⟨95, _⟩ => ⟨S100000x1, .i32⟩
  | .hbm, ⟨96, _⟩ => ⟨S512x16, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S512, .f32⟩
  | .hbm, ⟨101, _⟩ => ⟨S100000x1, .i32⟩
  | .hbm, ⟨102, _⟩ => ⟨S512, .f32⟩
  | .hbm, ⟨103, _⟩ => ⟨S_, .f32⟩
  | .hbm, ⟨104, _⟩ => ⟨S512, .f32⟩
  | .hbm, ⟨105, _⟩ => ⟨S512, .f32⟩
  | .hbm, ⟨106, _⟩ => ⟨S512x1, .f32⟩
  | .hbm, ⟨107, _⟩ => ⟨S512x16, .f32⟩
  | .hbm, ⟨108, _⟩ => ⟨S512x16, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S512x16 : S_.BroadcastsInDim S512x16 (![] : Fin 0 → Fin S512x16.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x5_S5x16_S100000x16_1_0_0_1_n_n_wf : DotDims.WF S100000x5 S5x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S512x16_S100000x1_S100000x16_1_0_0_1_wf : ScatterDims.WF S512x16 S100000x1 S100000x16 [1] [0] [0] 1
  scatter_S512_S100000x1_S100000_n_0_0_1_wf : ScatterDims.WF S512 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x5_S5x16_S100000x16_1_0_0_1_n_n : DotDims S100000x5 S5x16 S100000x16 where
  lhsContracting := [1]
  rhsContracting := [0]
  lhsNonContracting := [0]
  rhsNonContracting := [1]
  lhsBatch := []
  rhsBatch := []
  wf := dot_S100000x5_S5x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S512x16_S100000x1_S100000x16_1_0_0_1 : ScatterDims S512x16 S100000x1 S100000x16 where
  updateWindowDims := [1]
  insertedWindowDims := [0]
  scatterDimsToOperandDims := [0]
  indexVectorDim := 1
  wf := scatter_S512x16_S100000x1_S100000x16_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.Bound.lean ====
/-
  What the TensorCore's buffers hold at the boundaries between the host stretches and the kernel regions of the
  idealized kernel program, read off the fold of boundary contents at the buffers the value argument needs:
  the edge lists with self-loops and the edge normalization (computed before the first region and never written again),
  the two neighbourhood aggregations (a gather of rows by source, a scaling, a scatter-add by destination) as ONE function
  `agg` of the edge data and the rows, the bias rows, the padded arrays the pooling region reads, the closing division,
  and each argument array wherever a region or a stretch reads it.
-/
import proofs.«410100_j51196010168909_1_alg».proof.Proof.Gen.KernelIdeal.Frame
import Idealize.ShloMosaic.Lib.StableHlo.Run

set_option maxRecDepth 16384

noncomputable section

namespace Cert.KernelIdeal.Bound

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A host stretch leaves a buffer none of its operations writes as it found it. -/
local macro "stretch_keeps " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The wrap of a signed row index into 0 … 99999 that precedes a gather: an index below zero gains 100000. -/
def wrap (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- One neighbourhood aggregation: the rows `h` gathered by (wrapped) source `s3`, each scaled by its edge's weight
    `n29`, scatter-added into zeros by destination `d6`. -/
def agg (s3 d6 : IVec S3300000 32) (n29 : FVec F S3300000 .f32) (h : FVec F S100000x16 .f32) : FVec F S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 d6)
    (mulf
      (Host.gather gather_S100000x16_S3300000x1_S3300000x16_1_0_n_n_0_1_116 h
        (broadcastInDim S3300000x1 ![0] bcast_S3300000_S3300000x1_0 (wrap s3)))
      (broadcastInDim S3300000x16 ![0, 1] bcast_S3300000x1_S3300000x16_0_1
        (broadcastInDim S3300000x1 ![0] bcast_S3300000_S3300000x1_0 n29)))

/-! ## Before the first region -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = m ((c : Thread nD τ).loc main_arg4) := rfl

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := W4_of_ne m ρ c main_arg5 (by decide)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c : Thread nD τ).loc main_arg5) := rfl

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by stretch_keeps hostOps1
    _ = W3 m ρ c (Proc.devRef .tc main_arg6) := W4_of_ne m ρ c main_arg6 (by decide)
    _ = W2 m ρ c (Proc.devRef .tc main_arg6) := by stretch_keeps hostOps0_2
    _ = W1 m ρ c (Proc.devRef .tc main_arg6) := by stretch_keeps hostOps0_1
    _ = W0 m ρ c (Proc.devRef .tc main_arg6) := by stretch_keeps hostOps0
    _ = m ((c : Thread nD τ).loc main_arg6) := rfl

theorem W9_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := by stretch_keeps hostOps3
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by stretch_keeps hostOps1
    _ = W3 m ρ c (Proc.devRef .tc main_arg2) := W4_of_ne m ρ c main_arg2 (by decide)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c : Thread nD τ).loc main_arg2) := rfl

theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem W4_v29 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem W7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by stretch_keeps hostOps1
    _ = W3 m ρ c (Proc.devRef .tc main_v3) := W4_of_ne m ρ c main_v3 (by decide)

theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by stretch_keeps hostOps1
    _ = W3 m ρ c (Proc.devRef .tc main_v6) := W4_of_ne m ρ c main_v6 (by decide)

theorem W7_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by stretch_keeps hostOps1
    _ = W3 m ρ c (Proc.devRef .tc main_v29) := W4_of_ne m ρ c main_v29 (by decide)

/-! ## What the stretches compute -/

set_option maxHeartbeats 4000000 in
/-- After the first region: the first aggregation, of the first transform's rows. -/
theorem W5_v43 (c : Dev nD) : W5 m ρ c (Proc.devRef .tc main_v43)
    = agg (W4 m ρ c (Proc.devRef .tc main_v3)) (W4 m ρ c (Proc.devRef .tc main_v6)) (W4 m ρ c (Proc.devRef .tc main_v29)) (W4 m ρ c (Proc.devRef .tc main_v30)) := by
  dsimp only [W5, hostOps1]
  after_results_simp
  rfl

set_option maxHeartbeats 4000000 in
/-- The first bias laid out as a 1 × 16 row. -/
theorem W5_v44 (c : Dev nD) : W5 m ρ c (Proc.devRef .tc main_v44) = shapeCast S1x16 (W4 m ρ c (Proc.devRef .tc main_arg4)) shapeCasts_S16_S1x16 := by
  dsimp only [W5, hostOps1]
  after_results_simp
  rfl

set_option maxHeartbeats 4000000 in
/-- After the third region: the second aggregation, of the second transform's rows. -/
theorem W8_v59 (c : Dev nD) : W8 m ρ c (Proc.devRef .tc main_v59)
    = agg (W7 m ρ c (Proc.devRef .tc main_v3)) (W7 m ρ c (Proc.devRef .tc main_v6)) (W7 m ρ c (Proc.devRef .tc main_v29)) (W7 m ρ c (Proc.devRef .tc main_v46)) := by
  dsimp only [W8, hostOps3]
  after_results_simp
  rfl

set_option maxHeartbeats 4000000 in
/-- The second bias laid out as a 1 × 16 row. -/
theorem W8_v60 (c : Dev nD) : W8 m ρ c (Proc.devRef .tc main_v60) = shapeCast S1x16 (W7 m ρ c (Proc.devRef .tc main_arg6)) shapeCasts_S16_S1x16 := by
  dsimp only [W8, hostOps3]
  after_results_simp
  rfl

set_option maxHeartbeats 4000000 in
/-- Before the pooling region: the hidden rows padded below with 2400 rows of the zero the integer 0 converts to. -/
theorem W13_v63 (c : Dev nD) : W13 m ρ c (Proc.devRef .tc main_v63)
    = pad S102400x16 ![0, 0] ![2400, 0] ![0, 0] (W9 m ρ c (Proc.devRef .tc main_v61)) (sitofp (F := F) .f32 (constantI S_ 32 0#32))
        pads_S100000x16_S102400x16_024000_000 h_S_ := by
  dsimp only [W13, W12, W11, W10, hostOps4_3, hostOps4_2, hostOps4_1, hostOps4]
  after_results
  rfl

set_option maxHeartbeats 4000000 in
/-- Before the pooling region: the ids as one row, padded on the right with 2400 copies of the word −1. -/
theorem W13_v64 (c : Dev nD) : W13 m ρ c (Proc.devRef .tc main_v64)
    = pad S1x102400 ![0, 0] ![0, 2400] ![0, 0] (shapeCast S1x100000 (W9 m ρ c (Proc.devRef .tc main_arg2)) shapeCasts_S100000_S1x100000)
        (constantI S_ 32 4294967295#32) pads_S1x100000_S1x102400_000_024000 h_S_ := by
  dsimp only [W13, W12, W11, W10, hostOps4_3, hostOps4_2, hostOps4_1, hostOps4]
  after_results
  rfl

/-- After the pooling region: the sums over the counts clamped below at one and spread along the features. -/
theorem W15_v69 (c : Dev nD) : W15 m ρ c (Proc.devRef .tc main_v69)
    = Host.divf (W14 m ρ c (Proc.devRef .tc main_v65_0))
        (broadcastInDim S512x16 ![0, 1] bcast_S512x1_S512x16_0_1
          (maximumf (W14 m ρ c (Proc.devRef .tc main_v65_1))
            (broadcastInDim S512x1 ![] bcast_S_S512x1 (constant (F := F) S_ .f32 0x3F800000#32)))) := by
  dsimp only [W15, hostOps5]
  after_results

end Cert.KernelIdeal.Bound

end
-- ==== Proof.EdgeData.lean ====
/-
  The edge data shared by the two programs. Both build the source and destination lists with self-loops and the
  symmetric normalization (a scatter-add of ones by destination, a guarded reciprocal square root, two gathers and a
  product) by the same host operations from the edge array alone, so at the first region's entry the kernel program's
  buffers hold the reference's stages; and the reference's two neighbourhood aggregations are the shared aggregation
  of its two dense transforms.
-/
import proofs.«410100_j51196010168909_1_alg».proof.Proof.Bound
import proofs.«410100_j51196010168909_1_alg».proof.Proof.RefRead

set_option maxRecDepth 16384

noncomputable section

namespace Cert.KernelIdeal.EdgeData

open Cert.KernelIdeal Cert.KernelIdeal.Gen Cert.KernelIdeal.Bound
open Idealize.ShloMosaic Idealize.ShloMosaic.TcCoe Idealize.SL.Sem Idealize.ShloMosaic.StableHlo
open Cert.ReferenceIdeal.Read (val_main_v3 val_main_v6 val_main_v29 val_main_v30 val_main_v43 val_main_v48 val_main_v61)

section Generic

variable {F : FTy → Type} [FloatOps F]
variable (m : (ℓ : Loc nD τ sig) → Buf (Elt F) ℓ) (ρ : Dev nD → PrngReg)

set_option maxHeartbeats 4000000 in
/-- The source list with self-loops is the reference's. -/
theorem W3_v3 (c : Dev nD) :
    W3 m ρ c (Proc.devRef .tc main_v3) = val_main_v3 (F := F) (m ((c : Thread nD τ).loc main_arg1)) := by
  dsimp only [W3, W2, W1, hostOps0_2, hostOps0_1, hostOps0]
  after_results
  rfl

set_option maxHeartbeats 4000000 in
/-- The destination list with self-loops is the reference's. -/
theorem W3_v6 (c : Dev nD) :
    W3 m ρ c (Proc.devRef .tc main_v6) = val_main_v6 (F := F) (m ((c : Thread nD τ).loc main_arg1)) := by
  dsimp only [W3, W2, W1, hostOps0_2, hostOps0_1, hostOps0]
  after_results
  rfl

set_option maxHeartbeats 4000000 in
/-- The edge normalization is the reference's. -/
theorem W3_v29 (c : Dev nD) :
    W3 m ρ c (Proc.devRef .tc main_v29) = val_main_v29 (F := F) (m ((c : Thread nD τ).loc main_arg1)) := by
  dsimp only [W3, W2, W1, hostOps0_2, hostOps0_1, hostOps0]
  after_results
  rfl

/-- The reference's first aggregation is the shared aggregation of its first transform. -/
theorem agg_ref43 (x0 : FVec F S100000x5 .f32) (x1 : IVec S2x3200000 32) (x3 : FVec F S5x16 .f32) :
    agg (val_main_v3 (F := F) x1) (val_main_v6 (F := F) x1) (val_main_v29 (F := F) x1) (val_main_v30 (F := F) x0 x3)
      = val_main_v43 (F := F) x0 x1 x3 := rfl

/-- The reference's second aggregation is the shared aggregation of its second transform. -/
theorem agg_ref61 (x0 : FVec F S100000x5 .f32) (x1 : IVec S2x3200000 32) (x3 : FVec F S5x16 .f32) (x4 : FVec F S16 .f32)
    (x5 : FVec F S16x16 .f32) :
    agg (val_main_v3 (F := F) x1) (val_main_v6 (F := F) x1) (val_main_v29 (F := F) x1) (val_main_v48 (F := F) x0 x1 x3 x4 x5)
      = val_main_v61 (F := F) x0 x1 x3 x4 x5 := rfl

end Generic

end Cert.KernelIdeal.EdgeData

end
-- ==== Proof.Spec.lean ====
/-
  The mathematics of the graph network's forward pass over the extended reals, index by index, on literal shapes.
  A dense transform of the node rows (`lin5`, `lin16`: entry (n, j) is the sum over k of x[n, k] · w[k, j]); a bias added
  along the feature axis and clamped below at zero (`biasRelu`); and the pooling of node rows into graphs: node n
  contributes to graph g exactly when its 32-bit graph id is the word g (`hot`), so a graph's row is the sum of its
  nodes' rows and its count the number of its nodes. The pooled sums come in two spellings: over the node array padded
  to 40 tiles of 2560 rows, tile by tile (`poolSumTiles`, `poolCntTiles`: what a tiled accumulation computes), and over
  the 100000 nodes themselves (`poolSum`, `poolCnt`). The last step divides each graph's sum by its count, the count
  clamped below at one (`meanOf`).
-/
import Idealize.ShloMosaic.PureOps.Ideal
import Idealize.ShloMosaic.Lib.ValueIdx

noncomputable section

namespace Cert.Spec

open Idealize.ShloMosaic

abbrev Rows5 : Shape := ⟨2, ![100000, 5]⟩
abbrev Wt5 : Shape := ⟨2, ![5, 16]⟩
abbrev Rows16 : Shape := ⟨2, ![100000, 16]⟩
abbrev Wt16 : Shape := ⟨2, ![16, 16]⟩
abbrev Bias : Shape := ⟨2, ![1, 16]⟩
abbrev PadRows16 : Shape := ⟨2, ![102400, 16]⟩
abbrev PadIds : Shape := ⟨2, ![1, 102400]⟩
abbrev Ids : Shape := ⟨1, ![100000]⟩
abbrev Graph16 : Shape := ⟨2, ![512, 16]⟩
abbrev Graph1 : Shape := ⟨2, ![512, 1]⟩

/-- Entry (n, k) of an array of 100000 rows of 5. -/
abbrev at5 (n : Fin 100000) (k : Fin 5) : Rows5.Idx := fun a => match a with
  | ⟨0, _⟩ => ⟨n.val, n.isLt⟩
  | ⟨1, _⟩ => ⟨k.val, k.isLt⟩
/-- Entry (k, j) of a 5 × 16 weight. -/
abbrev atW5 (k : Fin 5) (j : Fin 16) : Wt5.Idx := fun a => match a with
  | ⟨0, _⟩ => ⟨k.val, k.isLt⟩
  | ⟨1, _⟩ => ⟨j.val, j.isLt⟩
/-- Entry (n, k) of an array of 100000 rows of 16. -/
abbrev at16 (n : Fin 100000) (k : Fin 16) : Rows16.Idx := fun a => match a with
  | ⟨0, _⟩ => ⟨n.val, n.isLt⟩
  | ⟨1, _⟩ => ⟨k.val, k.isLt⟩
/-- Entry (k, j) of a 16 × 16 weight. -/
abbrev atW16 (k : Fin 16) (j : Fin 16) : Wt16.Idx := fun a => match a with
  | ⟨0, _⟩ => ⟨k.val, k.isLt⟩
  | ⟨1, _⟩ => ⟨j.val, j.isLt⟩
/-- Entry (0, j) of a bias row. -/
abbrev atB (j : Fin 16) : Bias.Idx := fun a => match a with
  | ⟨0, _⟩ => ⟨0, Nat.one_pos⟩
  | ⟨1, _⟩ => ⟨j.val, j.isLt⟩
/-- Entry (n, j) of the padded node array. -/
abbrev atP (n : Fin 102400) (j : Fin 16) : PadRows16.Idx := fun a => match a with
  | ⟨0, _⟩ => ⟨n.val, n.isLt⟩
  | ⟨1, _⟩ => ⟨j.val, j.isLt⟩
/-- Entry (0, n) of the padded row of graph ids. -/
abbrev atPI (n : Fin 102400) : PadIds.Idx := fun a => match a with
  | ⟨0, _⟩ => ⟨0, Nat.one_pos⟩
  | ⟨1, _⟩ => ⟨n.val, n.isLt⟩
/-- Entry n of the graph ids. -/
abbrev atI (n : Fin 100000) : Ids.Idx := fun a => match a with
  | ⟨0, _⟩ => ⟨n.val, n.isLt⟩

/-- The node rows' coordinates of an index, as plain bounded numbers. -/
abbrev row (i : Rows16.Idx) : Fin 100000 := ⟨(i 0).val, (i 0).isLt⟩
abbrev col (i : Rows16.Idx) : Fin 16 := ⟨(i 1).val, (i 1).isLt⟩
abbrev grow (i : Graph16.Idx) : Fin 512 := ⟨(i 0).val, (i 0).isLt⟩
abbrev gcol (i : Graph16.Idx) : Fin 16 := ⟨(i 1).val, (i 1).isLt⟩
abbrev grow1 (i : Graph1.Idx) : Fin 512 := ⟨(i 0).val, (i 0).isLt⟩

/-- The dense transform of rows of 5 features: entry (n, j) is the sum over k of x[n, k] · w[k, j]. -/
def lin5 (x : FVec Ideal Rows5 .f32) (w : FVec Ideal Wt5 .f32) : FVec Ideal Rows16 .f32 :=
  fun i => ∑ k : Fin 5, x (at5 (row i) k) * w (atW5 k (col i))

/-- The dense transform of rows of 16 features. -/
def lin16 (x : FVec Ideal Rows16 .f32) (w : FVec Ideal Wt16 .f32) : FVec Ideal Rows16 .f32 :=
  fun i => ∑ k : Fin 16, x (at16 (row i) k) * w (atW16 k (col i))

/-- The bias added along the feature axis, then the clamp below at zero. -/
def biasRelu (a : FVec Ideal Rows16 .f32) (b : FVec Ideal Bias .f32) : FVec Ideal Rows16 .f32 :=
  fun i => max (a i + b (atB (col i))) 0

/-- One when the 32-bit graph id `w` is the word of graph `g`, zero otherwise. -/
def hot (g : Nat) (w : BitVec 32) : EReal := if BitVec.ofNat 32 g = w then 1 else 0

/-- Row 2560 · t + r of the padded arrays. -/
abbrev tileRow (t : Fin 40) (r : Fin 2560) : Fin 102400 := ⟨2560 * t.val + r.val, by have := t.isLt; have := r.isLt; omega⟩

/-- A graph's summed rows over the padded node array, tile by tile in tile order, each tile's partial sum added
    to the running sum that starts at zero. -/
def poolSumTiles (hp : FVec Ideal PadRows16 .f32) (bp : IVec PadIds 32) : FVec Ideal Graph16 .f32 :=
  fun i => ∑ t : Fin 40, ∑ r : Fin 2560, hot (grow i).val (bp (atPI (tileRow t r))) * hp (atP (tileRow t r) (gcol i))

/-- A graph's node count over the padded row of ids, tile by tile. -/
def poolCntTiles (bp : IVec PadIds 32) : FVec Ideal Graph1 .f32 :=
  fun i => ∑ t : Fin 40, ∑ r : Fin 2560, hot (grow1 i).val (bp (atPI (tileRow t r)))

/-- A graph's summed rows over the 100000 nodes. -/
def poolSum (h : FVec Ideal Rows16 .f32) (b : IVec Ids 32) : FVec Ideal Graph16 .f32 :=
  fun i => ∑ n : Fin 100000, hot (grow i).val (b (atI n)) * h (at16 n (gcol i))

/-- A graph's node count over the 100000 nodes. -/
def poolCnt (b : IVec Ids 32) : Fin 512 → EReal :=
  fun g => ∑ n : Fin 100000, hot g.val (b (atI n))

/-- The mean: each graph's sum over its count, the count clamped below at one. -/
def meanOf (s : FVec Ideal Graph16 .f32) (cnt : Fin 512 → EReal) : FVec Ideal Graph16 .f32 :=
  fun i => Ideal.div (s i) (max (cnt (grow i)) 1)

end Cert.Spec

end
-- ==== Proof.PoolScatter.lean ====
import proofs.«410100_j51196010168909_1_alg».proof.Proof.Spec
import Idealize.ShloMosaic.PureOps.Ideal
import Idealize.ShloMosaic.PureOps.Ideal.Laws
import Idealize.ShloMosaic.Lib.ValueIdx

noncomputable section

open Idealize.ShloMosaic

namespace Cert.Spec.PoolScatter

open Cert.Spec

/-- The ids as a column, one scatter index per node. -/
abbrev IdsCol : Shape := ⟨2, ![100000, 1]⟩
abbrev Graphs : Shape := ⟨1, ![512]⟩

/-- Entry (n, 0) of the ids column. -/
abbrev atIC (n : Fin 100000) : IdsCol.Idx := fun a => match a with
  | ⟨0, _⟩ => ⟨n.val, n.isLt⟩
  | ⟨1, _⟩ => ⟨0, Nat.one_pos⟩

/-- The dimension numbers of a row scatter into the 512 × 16 sums: update row n goes to the operand row its index
    names, the feature axis is the window. -/
def rowsDims : ScatterDims Graph16 IdsCol Rows16 where
  updateWindowDims := [1]
  insertedWindowDims := [0]
  scatterDimsToOperandDims := [0]
  indexVectorDim := 1

/-- The dimension numbers of a scalar scatter into the 512 counts. -/
def cntDims : ScatterDims Graphs IdsCol Ids where
  updateWindowDims := []
  insertedWindowDims := [0]
  scatterDimsToOperandDims := [0]
  indexVectorDim := 1

/-- An update lands on operand index i exactly when start plus window coordinate is i's coordinate on every axis. -/
private theorem resultIdx?_eq_some_iff {s si u : Shape} (d : ScatterDims s si u) {w : Nat} (j : u.Idx) (idx : IVec si w)
    (i : s.Idx) : d.resultIdx? j idx = some i ↔ ∀ a, d.start j idx a + (d.window j a : ℤ) = ((i a).val : ℤ) := by
  unfold ScatterDims.resultIdx?
  split_ifs with h
  · rw [Option.some.injEq]
    constructor
    · intro H a
      have := congrArg (fun f => (f a).val) H
      simp only at this
      have h2 := h a
      omega
    · intro H
      funext a
      apply Fin.ext
      have := H a
      simp only
      omega
  · constructor
    · intro H; exact absurd H (by simp)
    · intro H
      exfalso; apply h
      intro a
      have := H a
      have := (i a).isLt
      omega

/-- The scatter-index position an update of the row scatter reads: its own row, column 0. -/
private theorem siIdx_rows (j : Rows16.Idx) (c : Fin rowsDims.scatterDimsToOperandDims.length) :
    rowsDims.siIdx j c = atIC (row j) := by
  funext b
  match b with
  | ⟨0, _⟩ => rfl
  | ⟨1, _⟩ =>
    apply Fin.ext
    have hc : c.val < 1 := c.isLt
    show c.val = 0
    omega

/-- On the row axis the window starts at the update row's id, read signed. -/
private theorem start0 (j : Rows16.Idx) (idx : IVec IdsCol 32) :
    rowsDims.start j idx (0 : Fin 2) = (idx (atIC (row j))).toInt := by
  unfold ScatterDims.start
  rw [dif_pos (by decide), siIdx_rows]

/-- On the feature axis the window starts at 0. -/
private theorem start1 (j : Rows16.Idx) (idx : IVec IdsCol 32) :
    rowsDims.start j idx (1 : Fin 2) = 0 := by
  unfold ScatterDims.start
  rw [dif_neg (by decide)]

/-- The row axis is inserted: window coordinate 0. -/
private theorem window0 (j : Rows16.Idx) : rowsDims.window j (0 : Fin 2) = 0 := by
  unfold ScatterDims.window
  rw [dif_neg (by decide)]

/-- The feature axis is the window: the update's own feature coordinate. -/
private theorem window1 (j : Rows16.Idx) : rowsDims.window j (1 : Fin 2) = (j 1).val := by
  unfold ScatterDims.window
  rw [dif_pos (by decide)]
  rfl

/-- The landing rule of the row scatter: update (n, c) lands on (g, c') exactly when n's id read signed is g and
    c = c'. -/
private theorem lands_rows (j : Rows16.Idx) (idx : IVec IdsCol 32) (i : Graph16.Idx) :
    rowsDims.resultIdx? j idx = some i ↔
      (idx (atIC (row j))).toInt = ((i 0).val : ℤ) ∧ (j 1).val = (i 1).val := by
  rw [resultIdx?_eq_some_iff]
  constructor
  · intro H
    have H0 := H (0 : Fin 2)
    have H1 := H (1 : Fin 2)
    rw [start0, window0] at H0
    rw [start1, window1] at H1
    refine ⟨by simpa using H0, by exact_mod_cast (by simpa using H1)⟩
  · rintro ⟨H0, H1⟩ a
    match a with
    | ⟨0, _⟩ =>
      show rowsDims.start j idx (0 : Fin 2) + (rowsDims.window j (0 : Fin 2) : ℤ) = ((i 0).val : ℤ)
      rw [start0, window0, H0]; simp
    | ⟨1, _⟩ =>
      show rowsDims.start j idx (1 : Fin 2) + (rowsDims.window j (1 : Fin 2) : ℤ) = ((i 1).val : ℤ)
      rw [start1, window1, H1]; simp

/-- For a graph number below 512, a 32-bit word read signed is that number exactly when it is the number's word. -/
private theorem toInt_eq_iff (g : Nat) (hg : g < 512) (w : BitVec 32) :
    w.toInt = (g : ℤ) ↔ BitVec.ofNat 32 g = w := by
  constructor
  · intro H
    apply BitVec.eq_of_toNat_eq
    rw [BitVec.toNat_ofNat]
    rw [BitVec.toInt_eq_toNat_cond] at H
    have := w.isLt
    split_ifs at H <;> omega
  · intro H
    subst H
    rw [BitVec.toInt_eq_toNat_cond, BitVec.toNat_ofNat]
    split_ifs <;> omega

/-- The index (n, c) built from coordinates is the node array's entry (n, c). -/
private theorem ix2_eq_at16 (n : Fin 100000) (c : Fin 16) : (ValueIdx.ix2 n c : Rows16.Idx) = at16 n c := by
  funext a; match a with | ⟨0, _⟩ => rfl | ⟨1, _⟩ => rfl

/-- A rank-1 index set is its one coordinate range, so a sum over it is the sum over the coordinate. -/
private theorem sum_idx1 {M : Type*} [AddCommMonoid M] {n : Nat} (f : (⟨1, ![n]⟩ : Shape).Idx → M) :
    ∑ i, f i = ∑ a : Fin n, f (ValueIdx.ix1 a) := by
  let e : (⟨1, ![n]⟩ : Shape).Idx ≃ Fin n :=
    { toFun := fun i => i 0, invFun := fun a => ValueIdx.ix1 a,
      left_inv := fun i => (ValueIdx.eq_ix1 i).symm, right_inv := fun _ => rfl }
  rw [← Equiv.sum_comp e.symm f]
  rfl

/-- The scatter-index position an update of the count scatter reads: its own node, column 0. -/
private theorem siIdx_cnt (j : Ids.Idx) (c : Fin cntDims.scatterDimsToOperandDims.length) :
    cntDims.siIdx j c = atIC ⟨(j 0).val, (j 0).isLt⟩ := by
  funext b
  match b with
  | ⟨0, _⟩ => rfl
  | ⟨1, _⟩ =>
    apply Fin.ext
    have hc : c.val < 1 := c.isLt
    show c.val = 0
    omega

/-- On the one operand axis the window starts at the update node's id, read signed. -/
private theorem cstart0 (j : Ids.Idx) (idx : IVec IdsCol 32) :
    cntDims.start j idx (0 : Fin 1) = (idx (atIC ⟨(j 0).val, (j 0).isLt⟩)).toInt := by
  unfold ScatterDims.start
  rw [dif_pos (by decide), siIdx_cnt]

/-- That axis is inserted: window coordinate 0. -/
private theorem cwindow0 (j : Ids.Idx) : cntDims.window j (0 : Fin 1) = 0 := by
  unfold ScatterDims.window
  rw [dif_neg (by decide)]

/-- The landing rule of the count scatter: node n lands on graph g exactly when n's id read signed is g. -/
private theorem lands_cnt (j : Ids.Idx) (idx : IVec IdsCol 32) (i : Graphs.Idx) :
    cntDims.resultIdx? j idx = some i ↔ (idx (atIC ⟨(j 0).val, (j 0).isLt⟩)).toInt = ((i 0).val : ℤ) := by
  rw [resultIdx?_eq_some_iff]
  constructor
  · intro H
    have H0 := H (0 : Fin 1)
    rw [cstart0, cwindow0] at H0
    simpa using H0
  · intro H0 a
    match a with
    | ⟨0, _⟩ =>
      show cntDims.start j idx (0 : Fin 1) + (cntDims.window j (0 : Fin 1) : ℤ) = ((i 0).val : ℤ)
      rw [cstart0, cwindow0, H0]; simp

/-- The count scatter at any graph index: the number of nodes whose id is that graph's word. -/
private theorem scatterAdd_ones_at (z : FVec Ideal Graphs .f32) (hz : ∀ i, z i = 0) (idx : IVec IdsCol 32)
    (b : IVec Ids 32) (hidx : ∀ n : Fin 100000, idx (atIC n) = b (atI n)) (u : FVec Ideal Ids .f32)
    (hu : ∀ i, u i = 1) (i : Graphs.Idx) :
    Host.scatterAdd (F := Ideal) cntDims z idx u i = poolCnt b ⟨(i 0).val, (i 0).isLt⟩ := by
  -- the scatter-add at i: the operand's element plus the sum of the updates landing on i
  show z i + ∑ j ∈ Finset.univ.filter (fun j => cntDims.resultIdx? j idx = some i), u j = _
  rw [hz i, zero_add, Finset.sum_filter, sum_idx1]
  unfold poolCnt
  refine Finset.sum_congr rfl fun n _ => ?_
  -- node n lands on i exactly when its id is the word of i's graph; its update is 1
  have key : cntDims.resultIdx? (ValueIdx.ix1 n : Ids.Idx) idx = some i ↔
      BitVec.ofNat 32 (i 0).val = b (atI n) := by
    rw [lands_cnt]
    have hn : (⟨((ValueIdx.ix1 n : Ids.Idx) 0).val, ((ValueIdx.ix1 n : Ids.Idx) 0).isLt⟩ : Fin 100000) = n := rfl
    rw [hn, hidx n]
    exact toInt_eq_iff (i 0).val (i 0).isLt _
  rw [hu]
  unfold hot
  simp only [key]

/-- A float scatter-add of the node rows into zeros, by graph id read signed and dropped when outside 0 … 511, is the
    pooled sum: node n lands on graph g exactly when its id is the word g. -/
theorem scatterAdd_rows (z : FVec Ideal Graph16 .f32) (hz : ∀ i, z i = 0) (idx : IVec IdsCol 32) (b : IVec Ids 32)
    (hidx : ∀ n : Fin 100000, idx (atIC n) = b (atI n)) (h : FVec Ideal Rows16 .f32) :
    Host.scatterAdd (F := Ideal) rowsDims z idx h = poolSum h b := by
  funext i
  -- the scatter-add at i: the operand's element plus the sum of the updates landing on i
  show z i + ∑ j ∈ Finset.univ.filter (fun j => rowsDims.resultIdx? j idx = some i), h j = poolSum h b i
  rw [hz i, zero_add, Finset.sum_filter, ValueIdx.sum_idx2]
  unfold poolSum
  refine Finset.sum_congr rfl fun n _ => ?_
  -- node n's updates: feature c lands on i exactly when n's id is the word of i's graph and c is i's feature
  have key : ∀ c : Fin 16, rowsDims.resultIdx? (ValueIdx.ix2 n c) idx = some i ↔
      (BitVec.ofNat 32 (grow i).val = b (atI n) ∧ c = gcol i) := by
    intro c
    rw [lands_rows]
    have hrow : row (ValueIdx.ix2 n c : Rows16.Idx) = n := rfl
    rw [hrow, hidx n, toInt_eq_iff (i 0).val (i 0).isLt]
    constructor
    · rintro ⟨h0, h1⟩; exact ⟨h0, Fin.ext h1⟩
    · rintro ⟨h0, h1⟩; exact ⟨h0, congrArg Fin.val h1⟩
  simp only [key]
  unfold hot
  by_cases hA : BitVec.ofNat 32 (grow i).val = b (atI n)
  · -- the id is the graph's word: the feature sum keeps the one term c = i's feature, and 1 · x = x
    simp only [hA, true_and, if_true, Finset.sum_ite_eq', Finset.mem_univ, one_mul, ix2_eq_at16]
  · -- another graph: every term is 0, and 0 · x = 0
    simp only [hA, false_and, if_false, Finset.sum_const_zero, zero_mul]

/-- A float scatter-add of ones into zeros by graph id is the node count. -/
theorem scatterAdd_ones (z : FVec Ideal Graphs .f32) (hz : ∀ i, z i = 0) (idx : IVec IdsCol 32) (b : IVec Ids 32)
    (hidx : ∀ n : Fin 100000, idx (atIC n) = b (atI n)) (u : FVec Ideal Ids .f32) (hu : ∀ i, u i = 1) (g : Fin 512) :
    Host.scatterAdd (F := Ideal) cntDims z idx u (fun a => match a with | ⟨0, _⟩ => ⟨g.val, g.isLt⟩) = poolCnt b g := by
  exact scatterAdd_ones_at z hz idx b hidx u hu _

end Cert.Spec.PoolScatter

end
-- ==== Proof.RefBridge.lean ====
import proofs.«410100_j51196010168909_1_alg».proof.Proof.RefRead
import proofs.«410100_j51196010168909_1_alg».proof.Proof.Spec
import proofs.«410100_j51196010168909_1_alg».proof.Proof.PoolScatter
import Idealize.ShloMosaic.Lib.ValueIdx
import Idealize.ShloMosaic.Lib.IdealHost
import Idealize.ShloMosaic.PureOps.Ideal.Laws

noncomputable section

namespace Cert.ReferenceIdeal.Bridge

open Cert.ReferenceIdeal Cert.ReferenceIdeal.Gen Cert.ReferenceIdeal.Read Idealize.ShloMosaic Idealize.ShloMosaic.TcCoe Idealize.SL.Sem Idealize.ShloMosaic.StableHlo
open Cert.Spec

/-- The bit pattern of +0 is the extended real zero, as the float family's literal. -/
private theorem lit_zero : FloatOps.ofBits (F := Ideal) .f32 0x00000000#32 = 0 :=
  Ideal.ofBits_zero_f32

/-- The bit pattern 0x3F800000 is the extended real one, as the float family's literal. -/
private theorem lit_one : FloatOps.ofBits (F := Ideal) .f32 0x3F800000#32 = 1 :=
  Ideal.ofBits_one_f32

/-- The host's contraction of rows of 5 features against a 5 × 16 weight is the row-by-column sum. -/
theorem dot5_eq (x : FVec Ideal S100000x5 .f32) (w : FVec Ideal S5x16 .f32) :
    Host.dotGeneral dot_S100000x5_S5x16_S100000x16_1_0_0_1_n_n none x w = lin5 x w := by
  funext i
  -- the contraction at (n, j) is the sum over the one contracted axis k of x[n, k] · w[k, j]
  refine (val_main_v30_apply x w i).trans ?_
  unfold lin5
  refine Finset.sum_congr rfl fun k _ => ?_
  -- the two index builders name the same entries: (n, k) on the left, (k, j) on the right
  have el : lidx_main_v30 i k = at5 (row i) k := by
    funext a; match a with | ⟨0, _⟩ => rfl | ⟨1, _⟩ => rfl
  have er : ridx_main_v30 i k = atW5 k (col i) := by
    funext a; match a with | ⟨0, _⟩ => rfl | ⟨1, _⟩ => rfl
  rw [el, er]

/-- The host's contraction of rows of 16 features against a 16 × 16 weight is the row-by-column sum. -/
theorem dot16_eq (x : FVec Ideal S100000x16 .f32) (w : FVec Ideal S16x16 .f32) :
    Host.dotGeneral dot_S100000x16_S16x16_S100000x16_1_0_0_1_n_n none x w = lin16 x w := by
  funext i
  -- the contraction at (n, j) is the sum over the contracted index set, which is the one axis k of size 16
  simp only [Host.dotGeneral]
  rw [Ideal.dotGeneral_apply, ← Equiv.sum_comp (ValueIdx.contrEquiv1 dot_S100000x16_S16x16_S100000x16_1_0_0_1_n_n 16 rfl rfl).symm]
  unfold lin16
  refine Finset.sum_congr rfl fun k _ => ?_
  have hk := ValueIdx.contrEquiv1_symm_val dot_S100000x16_S16x16_S100000x16_1_0_0_1_n_n 16 rfl rfl k
  -- the left operand is read at (n, k): axis 0 is free, axis 1 is contracted
  have el : dot_S100000x16_S16x16_S100000x16_1_0_0_1_n_n.lhsIdx i ((ValueIdx.contrEquiv1 dot_S100000x16_S16x16_S100000x16_1_0_0_1_n_n 16 rfl rfl).symm k) = at16 (row i) k := funext fun a => Fin.ext (by
    match a with
    | ⟨0, _⟩ => exact lhs_main_v48_0 _ _
    | ⟨1, _⟩ => exact (lhs_main_v48_1 _ _).trans hk)
  -- the right operand is read at (k, j): axis 0 is contracted, axis 1 is free
  have er : dot_S100000x16_S16x16_S100000x16_1_0_0_1_n_n.rhsIdx i ((ValueIdx.contrEquiv1 dot_S100000x16_S16x16_S100000x16_1_0_0_1_n_n 16 rfl rfl).symm k) = atW16 k (col i) := funext fun a => Fin.ext (by
    match a with
    | ⟨0, _⟩ => exact (rhs_main_v48_0 _ _).trans hk
    | ⟨1, _⟩ => exact rhs_main_v48_1 _ _)
  rw [el, er]

/-- The first layer's bias added along the features and the clamp at zero, for any 1 × 16 row `b` holding the bias. -/
theorem biasRelu1_eq (a : FVec Ideal S100000x16 .f32) (x4 : FVec Ideal S16 .f32) (b : FVec Ideal Bias .f32)
    (hb : ∀ j : Fin 16, b (atB j) = x4 (fun d => match d with | ⟨0, _⟩ => ⟨j.val, j.isLt⟩)) :
    maximumf (addf a (val_main_v45 (F := Ideal) x4)) (val_main_call1_v0 (F := Ideal)) = biasRelu a b := by
  funext i
  -- entrywise: max (a + bias broadcast along the rows) (zero broadcast everywhere)
  rw [ValueIdx.maximumf_apply, ValueIdx.addf_apply, val_main_v45_apply, val_main_v44_apply,
    val_main_call1_v0_apply, val_main_call1_cst_apply, lit_zero]
  unfold biasRelu
  rw [hb (col i)]
  -- the two broadcasts read the bias at the feature coordinate of i
  have e : idx_main_v44 (idx_main_v45 i) = (fun d => match d with | ⟨0, _⟩ => ⟨(col i).val, (col i).isLt⟩) := by
    funext d; match d with | ⟨0, _⟩ => rfl
  rw [e]

/-- The second layer's bias added along the features and the clamp at zero. -/
theorem biasRelu2_eq (a : FVec Ideal S100000x16 .f32) (x6 : FVec Ideal S16 .f32) (b : FVec Ideal Bias .f32)
    (hb : ∀ j : Fin 16, b (atB j) = x6 (fun d => match d with | ⟨0, _⟩ => ⟨j.val, j.isLt⟩)) :
    maximumf (addf a (val_main_v63 (F := Ideal) x6)) (val_main_call2_v0 (F := Ideal)) = biasRelu a b := by
  funext i
  -- entrywise: max (a + bias broadcast along the rows) (zero broadcast everywhere)
  rw [ValueIdx.maximumf_apply, ValueIdx.addf_apply, val_main_v63_apply, val_main_v62_apply,
    val_main_call2_v0_apply, val_main_call2_cst_apply, lit_zero]
  unfold biasRelu
  rw [hb (col i)]
  -- the two broadcasts read the bias at the feature coordinate of i
  have e : idx_main_v62 (idx_main_v63 i) = (fun d => match d with | ⟨0, _⟩ => ⟨(col i).val, (col i).isLt⟩) := by
    funext d; match d with | ⟨0, _⟩ => rfl
  rw [e]

/-- The scatter-add of node rows into zeros by graph id is the pooled sum. -/
theorem pool_eq (h : FVec Ideal S100000x16 .f32) (x2 : IVec S100000 32) :
    Host.scatterAdd scatter_S512x16_S100000x1_S100000x16_1_0_0_1 (val_main_v66 (F := Ideal)) (val_main_v67 (F := Ideal) x2) h
      = poolSum h x2 := by
  -- the dimension numbers are those of the row scatter; the operand is all zeros; the index column holds the ids
  have hz : ∀ i, val_main_v66 (F := Ideal) i = 0 := fun i => by
    rw [val_main_v66_apply, val_main_cst_12_apply, lit_zero]
  have hidx : ∀ n : Fin 100000, val_main_v67 (F := Ideal) x2 (PoolScatter.atIC n) = x2 (atI n) := fun n => by
    rw [val_main_v67_apply]
    exact congrArg x2 (funext fun a => match a with | ⟨0, _⟩ => rfl)
  exact PoolScatter.scatterAdd_rows (val_main_v66 (F := Ideal)) hz (val_main_v67 (F := Ideal) x2) x2 hidx h

/-- The scatter-add of ones into zeros by graph id is the node count. -/
theorem cnt_eq (x2 : IVec S100000 32) (g : Fin 512) :
    val_main_v72 (F := Ideal) x2 (fun d => match d with | ⟨0, _⟩ => ⟨g.val, g.isLt⟩) = poolCnt x2 g := by
  -- the dimension numbers are those of the scalar scatter; the operand is all zeros, the updates all ones
  have hz : ∀ i, val_main_v70 (F := Ideal) i = 0 := fun i => by
    rw [val_main_v70_apply, val_main_cst_14_apply, lit_zero]
  have hidx : ∀ n : Fin 100000, val_main_v71 (F := Ideal) x2 (PoolScatter.atIC n) = x2 (atI n) := fun n => by
    rw [val_main_v71_apply]
    exact congrArg x2 (funext fun a => match a with | ⟨0, _⟩ => rfl)
  have hu : ∀ i, val_main_v69 (F := Ideal) i = 1 := fun i => by
    rw [val_main_v69_apply, val_main_cst_13_apply, lit_one]
  exact PoolScatter.scatterAdd_ones (val_main_v70 (F := Ideal)) hz (val_main_v71 (F := Ideal) x2) x2 hidx
    (val_main_v69 (F := Ideal)) hu g

/-- The closing division by the count clamped below at one, for any sums. -/
theorem mean_eq (s : FVec Ideal S512x16 .f32) (x2 : IVec S100000 32) :
    Host.divf s (val_main_v76 (F := Ideal) x2) = meanOf s (poolCnt x2) := by
  funext i
  -- entrywise the host's quotient is the division of the elements
  rw [ValueIdx.hostDivf_apply]
  -- the divisor at (g, c): the count of g clamped below at one, broadcast along the features
  rw [val_main_v76_apply, val_main_v75_apply, val_main_v74_apply, val_main_v73_apply, val_main_cst_15_apply,
    lit_one, Ideal.maximumf_def]
  have hc : val_main_v72 (F := Ideal) x2 (idx_main_v75 (idx_main_v76 i)) = poolCnt x2 (grow i) := by
    have e : idx_main_v75 (idx_main_v76 i) = (fun d => match d with | ⟨0, _⟩ => ⟨(grow i).val, (grow i).isLt⟩) := by
      funext d; match d with | ⟨0, _⟩ => rfl
    rw [e]; exact cnt_eq x2 (grow i)
  rw [hc]
  rfl

end Cert.ReferenceIdeal.Bridge

end
-- ==== Proof.HostTerms.lean ====
import proofs.«410100_j51196010168909_1_alg».proof.Proof.Gen.KernelIdeal
import proofs.«410100_j51196010168909_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open Idealize.ShloMosaic Idealize.ShloMosaic.TcCoe

namespace Cert.KernelIdeal.HostTerms

open Cert.KernelIdeal Cert.KernelIdeal.Gen Cert.Spec

/-! ## A padded array read at an index

With no interior padding a result coordinate `lo + k` on every axis, `k` inside the operand, reads the operand at
`k`; a result coordinate whose quotient falls outside the operand on ONE axis reads the padding value. Stated with
the interior step kept general: result coordinate `lo + k · (interior + 1)`. -/

/-- A padded array read where every coordinate is `lo + k · (interior + 1)` for an operand index `k` is the operand at `k`. -/
private theorem pad_apply_in {s t u : Shape} {α : Type} (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a, Nat.add_sub_cancel_left]
    exact ⟨Nat.le_add_right _ _, Nat.mul_mod_left _ _, by rw [Nat.mul_div_cancel _ (Nat.succ_pos _)]; exact (k a).isLt⟩
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- A padded array read where, on one axis, the quotient is not below the operand's extent is the padding value. -/
private theorem pad_apply_out {s t u : Shape} {α : Type} (lo hi interior : Fin s.rank → Nat) (x : s.Idx → α) (v : u.Idx → α)
    (h : s.Pads lo hi interior t) (hu : 0 < u.numel) (j : t.Idx) (a : Fin s.rank)
    (ha : ¬ ((j (a.cast h.1)).val - lo a) / (interior a + 1) < s.size a) :
    pad t lo hi interior x v h hu j = v (Shape.Idx.first hu) := by
  unfold pad
  exact dif_neg fun hin => ha (hin a).2.2

/-- The closing host operations: the sums over the counts column clamped below at one and spread along the
    features are the mean of the sums by the column's entries. -/
theorem mean_term (s : FVec Ideal S512x16 .f32) (cnt : FVec Ideal S512x1 .f32) :
    Host.divf s (broadcastInDim S512x16 ![0, 1] bcast_S512x1_S512x16_0_1
        (maximumf cnt (broadcastInDim S512x1 ![] bcast_S_S512x1 (constant (F := Ideal) S_ .f32 0x3F800000#32))))
      = meanOf s (fun g => cnt (fun d => match d with
          | ⟨0, _⟩ => ⟨g.val, g.isLt⟩
          | ⟨1, _⟩ => ⟨0, Nat.one_pos⟩)) := by
  funext i
  unfold meanOf
  -- the quotient is entrywise; the divisor at (g, j) is the clamped column at (g, 0)
  refine (ValueIdx.hostDivf_apply _ _ i).trans (congrArg (Ideal.div (s i)) ?_)
  refine (broadcastInDim_apply _ bcast_S512x1_S512x16_0_1 _ i
    (fun a => match a with
      | ⟨0, _⟩ => ⟨(i 0).val, (i 0).isLt⟩
      | ⟨1, _⟩ => ⟨0, Nat.one_pos⟩)
    (fun a => match a with
      | ⟨0, _⟩ => by show (i 0).val = if (512 : Nat) = 1 then 0 else (i 0).val; rw [if_neg (by decide)]
      | ⟨1, _⟩ => by show 0 = if (1 : Nat) = 1 then 0 else (i 1).val; rw [if_pos rfl])).trans ?_
  refine (ValueIdx.maximumf_apply _ _ _).trans ?_
  -- the column's entry is the one the statement names; the clamp's bound is the scalar one spread over the column
  refine congrArg₂ max (congrArg cnt (funext fun d => match d with
    | ⟨0, _⟩ => rfl
    | ⟨1, _⟩ => rfl)) ?_
  rw [ValueIdx.broadcastInDim_scalar_apply bcast_S_S512x1, ValueIdx.constant_apply, Ideal.ofBits_one_f32]

/-- The node rows padded below with 2400 rows of the zero that the integer 0 converts to: rows under 100000 are
    the node rows, the rest zero. -/
theorem pad_rows (h : FVec Ideal S100000x16 .f32) (n : Fin 102400) (j : Fin 16) :
    pad S102400x16 ![0, 0] ![2400, 0] ![0, 0] h (sitofp (F := Ideal) .f32 (constantI S_ 32 0#32))
        pads_S100000x16_S102400x16_024000_000 h_S_ (atP n j)
      = if hn : n.val < 100000 then h (at16 ⟨n.val, hn⟩ j) else 0 := by
  by_cases hn : n.val < 100000
  · -- a row under 100000: both coordinates are the operand's own
    rw [dif_pos hn]
    exact pad_apply_in _ _ _ h _ pads_S100000x16_S102400x16_024000_000 h_S_ (atP n j) (at16 ⟨n.val, hn⟩ j)
      (fun a => match a with
        | ⟨0, _⟩ => by show n.val = 0 + n.val * (0 + 1); omega
        | ⟨1, _⟩ => by show j.val = 0 + j.val * (0 + 1); omega)
  · -- a row from 100000 on lies past the operand's rows: the padding value, the integer 0 as a real
    rw [dif_neg hn]
    refine (pad_apply_out _ _ _ h _ pads_S100000x16_S102400x16_024000_000 h_S_ (atP n j) ⟨0, by decide⟩
      (by show ¬ (n.val - 0) / (0 + 1) < 100000; omega)).trans ?_
    show (((0#32 : BitVec 32).toInt : ℝ) : EReal) = 0
    rw [show (0#32 : BitVec 32).toInt = 0 from by decide, Int.cast_zero, EReal.coe_zero]

/-- The ids laid out as one row and padded on the right with 2400 copies of the word −1. -/
theorem pad_ids (b : IVec S100000 32) (n : Fin 102400) :
    pad S1x102400 ![0, 0] ![0, 2400] ![0, 0] (shapeCast S1x100000 b shapeCasts_S100000_S1x100000)
        (constantI S_ 32 4294967295#32) pads_S1x100000_S1x102400_000_024000 h_S_ (atPI n)
      = if hn : n.val < 100000 then b (atI ⟨n.val, hn⟩) else 4294967295#32 := by
  by_cases hn : n.val < 100000
  · -- a position under 100000: entry (0, n) of the row, which is entry n of the ids (same row-major position)
    rw [dif_pos hn]
    refine (pad_apply_in _ _ _ _ _ pads_S1x100000_S1x102400_000_024000 h_S_ (atPI n)
      (fun a => match a with
        | ⟨0, _⟩ => ⟨0, Nat.one_pos⟩
        | ⟨1, _⟩ => ⟨n.val, hn⟩)
      (fun a => match a with
        | ⟨0, _⟩ => by show 0 = 0 + 0 * (0 + 1); omega
        | ⟨1, _⟩ => by show n.val = 0 + n.val * (0 + 1); omega)).trans ?_
    exact shapeCast_apply b shapeCasts_S100000_S1x100000 _ (atI ⟨n.val, hn⟩) (by
      rw [Shape.rowMajor_val_two, Shape.rowMajor_val_one]
      show n.val = 0 * 100000 + n.val
      omega)
  · -- a position from 100000 on lies past the row's end: the padding word
    rw [dif_neg hn]
    exact pad_apply_out _ _ _ _ _ pads_S1x100000_S1x102400_000_024000 h_S_ (atPI n) ⟨1, by decide⟩
      (by show ¬ (n.val - 0) / (0 + 1) < 100000; omega)

/-- A bias vector laid out as a 1 × 16 row keeps its entries. -/
theorem bias_row (x : FVec Ideal S16 .f32) (j : Fin 16) :
    shapeCast S1x16 x shapeCasts_S16_S1x16 (atB j) = x (fun d => match d with | ⟨0, _⟩ => ⟨j.val, j.isLt⟩) :=
  -- entry (0, j) of the row and entry j of the vector have the same row-major position
  shapeCast_apply x shapeCasts_S16_S1x16 (atB j) _ (by
    rw [Shape.rowMajor_val_two, Shape.rowMajor_val_one]
    show j.val = 0 * 16 + j.val
    omega)

end Cert.KernelIdeal.HostTerms

end
-- ==== Proof.PoolPad.lean ====
import proofs.«410100_j51196010168909_1_alg».proof.Proof.Spec
import Idealize.ShloMosaic.PureOps.Ideal
import Idealize.ShloMosaic.PureOps.Ideal.Laws
import Idealize.ShloMosaic.Lib.ValueIdx

noncomputable section

open Idealize.ShloMosaic

namespace Cert.Spec.PoolPad

open Cert.Spec

/-- The 40 tiles of 2560 rows enumerate the rows 0 … 102399 once each: the pair (t, r) is the row r + 2560 · t. -/
private theorem sum_tiles {M : Type} [AddCommMonoid M] (f : Fin 102400 → M) :
    (∑ t : Fin 40, ∑ r : Fin 2560, f (tileRow t r)) = ∑ n : Fin 102400, f n := by
  rw [← Fintype.sum_prod_type']
  refine Fintype.sum_equiv (finProdFinEquiv (m := 40) (n := 2560)) _ _ ?_
  intro x
  congr 1
  apply Fin.ext
  have hx := finProdFinEquiv_apply_val (m := 40) (n := 2560) x
  simp only [tileRow]
  omega

/-- A sum over 102400 rows whose rows from 100000 on are zero is the sum over the first 100000 rows. -/
private theorem sum_pad {M : Type} [AddCommMonoid M] (f : Fin 102400 → M) (g : Fin 100000 → M)
    (hf : ∀ n : Fin 102400, f n = if hn : n.val < 100000 then g ⟨n.val, hn⟩ else 0) :
    (∑ n : Fin 102400, f n) = ∑ n : Fin 100000, g n := by
  show (∑ n : Fin (100000 + 2400), f n) = _
  rw [Fin.sum_univ_add]
  have h1 : ∀ i : Fin 100000, f (Fin.castAdd 2400 i) = g i := by
    intro i
    rw [hf]
    have : (Fin.castAdd 2400 i).val < 100000 := i.isLt
    rw [dif_pos this]
    rfl
  have h2 : ∀ i : Fin 2400, f (Fin.natAdd 100000 i) = 0 := by
    intro i
    rw [hf]
    have : ¬ (Fin.natAdd 100000 i).val < 100000 := by simp [Fin.natAdd]
    rw [dif_neg this]
  simp only [h1, h2, Finset.sum_const_zero, add_zero]

/-- The word −1 is no graph's word: for g < 512 the word of g has value g, not 4294967295. -/
private theorem hot_pad (g : Nat) (hg : g < 512) : hot g 4294967295#32 = 0 := by
  unfold hot
  rw [if_neg]
  intro h
  have := congrArg BitVec.toNat h
  simp at this
  omega

/-- Padding the node array with zero rows and the ids with the word −1, which is no graph's word, changes no pooled sum:
    the 40 tiles of 2560 rows enumerate rows 0 … 102399 once each, the rows from 100000 on contribute nothing, and the
    rest are the nodes. -/
theorem sums_of_padded (h : FVec Ideal Rows16 .f32) (b : IVec Ids 32)
    (hp : FVec Ideal PadRows16 .f32) (bp : IVec PadIds 32)
    (hh : ∀ (n : Fin 102400) (j : Fin 16), hp (atP n j) = if hn : n.val < 100000 then h (at16 ⟨n.val, hn⟩ j) else 0)
    (hb : ∀ n : Fin 102400, bp (atPI n) = if hn : n.val < 100000 then b (atI ⟨n.val, hn⟩) else 4294967295#32) :
    poolSumTiles hp bp = poolSum h b := by
  funext i
  unfold poolSumTiles poolSum
  rw [sum_tiles (fun n => hot (grow i).val (bp (atPI n)) * hp (atP n (gcol i)))]
  refine sum_pad _ (fun n => hot (grow i).val (b (atI n)) * h (at16 n (gcol i))) ?_
  intro n
  show hot (grow i).val (bp (atPI n)) * hp (atP n (gcol i)) = _
  rw [hh, hb]
  by_cases hn : n.val < 100000
  · rw [dif_pos hn, dif_pos hn, dif_pos hn]
  · rw [dif_neg hn, dif_neg hn, dif_neg hn, hot_pad _ (grow i).isLt, zero_mul]

/-- The same for the counts. -/
theorem counts_of_padded (b : IVec Ids 32) (bp : IVec PadIds 32)
    (hb : ∀ n : Fin 102400, bp (atPI n) = if hn : n.val < 100000 then b (atI ⟨n.val, hn⟩) else 4294967295#32)
    (i : Graph1.Idx) :
    poolCntTiles bp i = poolCnt b (grow1 i) := by
  unfold poolCntTiles poolCnt
  rw [sum_tiles (fun n => hot (grow1 i).val (bp (atPI n)))]
  refine sum_pad _ (fun n => hot (grow1 i).val (b (atI n))) ?_
  intro n
  show hot (grow1 i).val (bp (atPI n)) = _
  rw [hb]
  by_cases hn : n.val < 100000
  · rw [dif_pos hn, dif_pos hn]
  · rw [dif_neg hn, dif_neg hn, hot_pad _ (grow1 i).isLt]

end Cert.Spec.PoolPad

end
-- ==== Proof.Lin0.lean ====
import proofs.«410100_j51196010168909_1_alg».proof.Proof.Gen.KernelIdeal.Frame
import proofs.«410100_j51196010168909_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Lin0

open Cert.KernelIdeal Cert.KernelIdeal.Gen

-- the TensorCore's buffer contents when the region is entered, at the extended reals
variable (V : (c : Dev nD) → (b : Ref sig .tc) → Buf (Elt Ideal) ((c : Thread nD τ).loc b))

/-- The body's accesses start at the origin of their buffers. -/
private theorem origin : (![0, 0] : Fin 2 → Nat) = fun _ => 0 := funext fun a => by fin_cases a <;> rfl

/-! The matrix product's operand indices, axis by axis: at output index i and contraction index q the left
    operand is read at (i 0, q) and the right operand at (q, i 1). -/

private theorem lhs_axis0 (i : S5000x16.Idx) (q : dot_S5000x5_S5x16_S5000x16_1_0_0_1_n_n.contr.Idx) :
    (dot_S5000x5_S5x16_S5000x16_1_0_0_1_n_n.lhsIdx i q 0).val = (i 0).val := by
  unfold DotDims.lhsIdx
  rw [dif_neg (show ¬(0 : Fin S5000x5.rank) ∈ dot_S5000x5_S5x16_S5000x16_1_0_0_1_n_n.lhsBatch by decide), dif_pos (show (0 : Fin S5000x5.rank) ∈ dot_S5000x5_S5x16_S5000x16_1_0_0_1_n_n.lhsNonContracting by decide)]
  rfl
private theorem lhs_axis1 (i : S5000x16.Idx) (q : dot_S5000x5_S5x16_S5000x16_1_0_0_1_n_n.contr.Idx) :
    (dot_S5000x5_S5x16_S5000x16_1_0_0_1_n_n.lhsIdx i q 1).val = (q ⟨0, by decide⟩).val :=
  dot_S5000x5_S5x16_S5000x16_1_0_0_1_n_n.lhsIdx_val_of_single rfl i q
private theorem rhs_axis0 (i : S5000x16.Idx) (q : dot_S5000x5_S5x16_S5000x16_1_0_0_1_n_n.contr.Idx) :
    (dot_S5000x5_S5x16_S5000x16_1_0_0_1_n_n.rhsIdx i q 0).val = (q ⟨0, by decide⟩).val :=
  dot_S5000x5_S5x16_S5000x16_1_0_0_1_n_n.rhsIdx_val_of_single rfl i q
private theorem rhs_axis1 (i : S5000x16.Idx) (q : dot_S5000x5_S5x16_S5000x16_1_0_0_1_n_n.contr.Idx) :
    (dot_S5000x5_S5x16_S5000x16_1_0_0_1_n_n.rhsIdx i q 1).val = (i 1).val := by
  unfold DotDims.rhsIdx
  rw [dif_neg (show ¬(1 : Fin S5x16.rank) ∈ dot_S5000x5_S5x16_S5000x16_1_0_0_1_n_n.rhsBatch by decide), dif_pos (show (1 : Fin S5x16.rank) ∈ dot_S5000x5_S5x16_S5000x16_1_0_0_1_n_n.rhsNonContracting by decide)]
  rfl

/-- The body's result at entry (p, q) of a tile: the narrowing to the 16-bit format is the identity on the
    extended reals, and the product into a zero accumulator is the sum over the 5 features k of
    x0[p, k] · x1[k, q]. -/
private theorem payload_apply (x0 : Vec Ideal S5000x5 .f32) (x1 : Vec Ideal S5x16 .f32) (p : Fin 5000) (q : Fin 16) :
    k0_pay1 x0 x1 (ValueIdx.ix2 p q) = ∑ k : Fin 5, x0 (ValueIdx.ix2 p k) * x1 (ValueIdx.ix2 k q) := by
  unfold k0_pay1
  refine (Ideal.matmul_constant_zero_apply dot_S5000x5_S5x16_S5000x16_1_0_0_1_n_n none _ _ _).trans ?_
  rw [← Equiv.sum_comp (ValueIdx.contrEquiv1 dot_S5000x5_S5x16_S5000x16_1_0_0_1_n_n 5 rfl rfl).symm]
  refine Finset.sum_congr rfl fun k _ => ?_
  have hk := ValueIdx.contrEquiv1_symm_val dot_S5000x5_S5x16_S5000x16_1_0_0_1_n_n 5 rfl rfl k
  have el : dot_S5000x5_S5x16_S5000x16_1_0_0_1_n_n.lhsIdx (ValueIdx.ix2 p q) ((ValueIdx.contrEquiv1 dot_S5000x5_S5x16_S5000x16_1_0_0_1_n_n 5 rfl rfl).symm k) = ValueIdx.ix2 p k := funext fun a => Fin.ext (by
    match a with
    | ⟨0, _⟩ => exact lhs_axis0 _ _
    | ⟨1, _⟩ => exact (lhs_axis1 _ _).trans hk)
  have er : dot_S5000x5_S5x16_S5000x16_1_0_0_1_n_n.rhsIdx (ValueIdx.ix2 p q) ((ValueIdx.contrEquiv1 dot_S5000x5_S5x16_S5000x16_1_0_0_1_n_n 5 rfl rfl).symm k) = ValueIdx.ix2 k q := funext fun a => Fin.ext (by
    match a with
    | ⟨0, _⟩ => exact (rhs_axis0 _ _).trans hk
    | ⟨1, _⟩ => exact rhs_axis1 _ _)
  rw [ValueIdx.truncf_apply, ValueIdx.truncf_apply, el, er]

/-- The printed index maps over the 20 grid points: the node tile and the result tile move together along
    the rows, every other block index is zero, and the row tile's index is the point's own number. -/
private theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What grid point t writes back is tile t of the dense transform of the node array and the weight. -/
private theorem flushed_eq (c : Dev nD) (t : Fin cfg0.N) :
    (dat0 (F := Ideal) V c).flushed 2 t = ((cfg0.win 2).blk t).view.read (Elt Ideal) (Cert.Spec.lin5 (V c main_arg0) (V c main_arg3)) := by
  show (cfg0.win 2).cut (grid0.coords t) ((dat0 (F := Ideal) V c).after 2 t) = _
  rw [after0_2]
  unfold out0_2
  rw [View.canon_unit_zero origin]
  simp only [View.ld_unit_zero (S := S5000x5) origin, View.ld_unit_zero (S := S5x16) origin]
  obtain ⟨e0, e1, e2, e3, e4, e5⟩ := index_facts t
  funext j
  revert j
  show ∀ j : S5000x16.Idx, k0_pay1 (iblk0 V c 0 t) (iblk0 V c 1 t) j
      = Cert.Spec.lin5 (V c main_arg0) (V c main_arg3) (((cfg0.win 2).blk t).view.emb j)
  intro j
  obtain ⟨p, q, rfl⟩ : ∃ (p : Fin 5000) (q : Fin 16), j = ValueIdx.ix2 p q := ⟨j 0, j 1, ValueIdx.eq_ix2 j⟩
  rw [payload_apply]
  unfold Cert.Spec.lin5
  refine Finset.sum_congr rfl fun k _ => ?_
  have hl : iblk0 V c 0 t (ValueIdx.ix2 p k)
      = V c main_arg0 (Cert.Spec.at5 (Cert.Spec.row (((cfg0.win 2).blk t).view.emb (ValueIdx.ix2 p q))) k) := by
    show V c main_arg0 (((cfg0.win 0).blk t).view.emb (ValueIdx.ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 5 + 1 * k.val = k.val; omega
  have hr : iblk0 V c 1 t (ValueIdx.ix2 k q)
      = V c main_arg3 (Cert.Spec.atW5 k (Cert.Spec.col (((cfg0.win 2).blk t).view.emb (ValueIdx.ix2 p q)))) := by
    show V c main_arg3 (((cfg0.win 1).blk t).view.emb (ValueIdx.ix2 k q)) = _
    refine congrArg (V c main_arg3) (funext fun a => Fin.ext ?_)
    match a with
    | ⟨0, _⟩ => show win0_1.index t (0 : Fin 2) * 5 + 1 * k.val = k.val; omega
    | ⟨1, _⟩ => show win0_1.index t (1 : Fin 2) * 16 + 1 * q.val = win0_2.index t (1 : Fin 2) * 16 + 1 * q.val; omega
  rw [hl, hr]

/-- An index of the result array lies in point t's tile exactly when each coordinate lies in the tile's
    range on its axis. -/
private theorem mem_tile (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The 20 row tiles cover the result array: row n lies in the tile of point n / 5000. -/
private theorem tiles_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := index_facts t
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The first dense transform's result array after its 20 row tiles: entry (n, j) is the sum over the 5 features k of
    x[n, k] · w[k, j], of the node array and the weight as the region finds them. -/
theorem array (c : Dev nD) :
    (dat0 (F := Ideal) V c).arrAt 2 cfg0.N = Cert.Spec.lin5 (V c main_arg0) (V c main_arg3) :=
  (dat0 (F := Ideal) V c).arrAt_eq_of_cover 2 (Cert.Spec.lin5 (V c main_arg0) (V c main_arg3))
    (fun t _ => flushed_eq V c t) tiles_cover

end Cert.KernelIdeal.Lin0

end
-- ==== Proof.Lin2.lean ====
import proofs.«410100_j51196010168909_1_alg».proof.Proof.Gen.KernelIdeal.Frame
import proofs.«410100_j51196010168909_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Lin2

open Cert.KernelIdeal Cert.KernelIdeal.Gen

-- the TensorCore's buffer contents when the region is entered, at the extended reals
variable (V : (c : Dev nD) → (b : Ref sig .tc) → Buf (Elt Ideal) ((c : Thread nD τ).loc b))

/-- The body's accesses start at the origin of their buffers. -/
private theorem origin : (![0, 0] : Fin 2 → Nat) = fun _ => 0 := funext fun a => by fin_cases a <;> rfl

/-! The matrix product's operand indices, axis by axis: at output index i and contraction index q the left
    operand is read at (i 0, q) and the right operand at (q, i 1). -/

private theorem lhs_axis0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
private theorem lhs_axis1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
private theorem rhs_axis0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
private theorem rhs_axis1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- The body's result at entry (p, q) of a tile: the cast of the tile to its own shape and the narrowing to the
    16-bit format are the identity on the extended reals, and the product into a zero accumulator is the sum
    over the 16 features k of x0[p, k] · x1[k, q]. -/
private theorem payload_apply (x0 : Vec Ideal S5000x16 .f32) (x1 : Vec Ideal S16x16 .f32) (p : Fin 5000) (q : Fin 16) :
    k2_pay1 x0 x1 (ValueIdx.ix2 p q) = ∑ k : Fin 16, x0 (ValueIdx.ix2 p k) * x1 (ValueIdx.ix2 k q) := by
  unfold k2_pay1
  refine (Ideal.matmul_constant_zero_apply dot_S5000x16_S16x16_S5000x16_1_0_0_1_n_n none _ _ _).trans ?_
  rw [← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx (ValueIdx.ix2 p q) ((ValueIdx.contrEquiv1 dot_S5000x16_S16x16_S5000x16_1_0_0_1_n_n 16 rfl rfl).symm k) = ValueIdx.ix2 p k := funext fun a => Fin.ext (by
    match a with
    | ⟨0, _⟩ => exact lhs_axis0 _ _
    | ⟨1, _⟩ => exact (lhs_axis1 _ _).trans hk)
  have er : dot_S5000x16_S16x16_S5000x16_1_0_0_1_n_n.rhsIdx (ValueIdx.ix2 p q) ((ValueIdx.contrEquiv1 dot_S5000x16_S16x16_S5000x16_1_0_0_1_n_n 16 rfl rfl).symm k) = ValueIdx.ix2 k q := funext fun a => Fin.ext (by
    match a with
    | ⟨0, _⟩ => exact (rhs_axis0 _ _).trans hk
    | ⟨1, _⟩ => exact rhs_axis1 _ _)
  rw [ValueIdx.truncf_apply, ValueIdx.truncf_apply, el, er, shapeCast_self]

/-- The printed index maps over the 20 grid points: the hidden array's tile and the result tile move together along
    the rows, every other block index is zero, and the row tile's index is the point's own number. -/
private theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What grid point t writes back is tile t of the dense transform of the hidden array and the weight. -/
private theorem flushed_eq (c : Dev nD) (t : Fin cfg2.N) :
    (dat2 (F := Ideal) V c).flushed 2 t = ((cfg2.win 2).blk t).view.read (Elt Ideal) (Cert.Spec.lin16 (V c main_v45) (V c main_arg5)) := by
  show (cfg2.win 2).cut (grid2.coords t) ((dat2 (F := Ideal) V c).after 2 t) = _
  rw [after2_2]
  unfold out2_2
  rw [View.canon_unit_zero origin]
  simp only [View.ld_unit_zero (S := S5000x16) origin, View.ld_unit_zero (S := S16x16) origin]
  obtain ⟨e0, e1, e2, e3, e4, e5⟩ := index_facts t
  funext j
  revert j
  show ∀ j : S5000x16.Idx, k2_pay1 (iblk2 V c 0 t) (iblk2 V c 1 t) j
      = Cert.Spec.lin16 (V c main_v45) (V c main_arg5) (((cfg2.win 2).blk t).view.emb j)
  intro j
  obtain ⟨p, q, rfl⟩ : ∃ (p : Fin 5000) (q : Fin 16), j = ValueIdx.ix2 p q := ⟨j 0, j 1, ValueIdx.eq_ix2 j⟩
  rw [payload_apply]
  unfold Cert.Spec.lin16
  refine Finset.sum_congr rfl fun k _ => ?_
  have hl : iblk2 V c 0 t (ValueIdx.ix2 p k)
      = V c main_v45 (Cert.Spec.at16 (Cert.Spec.row (((cfg2.win 2).blk t).view.emb (ValueIdx.ix2 p q))) k) := by
    show V c main_v45 (((cfg2.win 0).blk t).view.emb (ValueIdx.ix2 p k)) = _
    refine congrArg (V c main_v45) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 16 + 1 * k.val = k.val; omega
  have hr : iblk2 V c 1 t (ValueIdx.ix2 k q)
      = V c main_arg5 (Cert.Spec.atW16 k (Cert.Spec.col (((cfg2.win 2).blk t).view.emb (ValueIdx.ix2 p q)))) := by
    show V c main_arg5 (((cfg2.win 1).blk t).view.emb (ValueIdx.ix2 k q)) = _
    refine congrArg (V c main_arg5) (funext fun a => Fin.ext ?_)
    match a with
    | ⟨0, _⟩ => show win2_1.index t (0 : Fin 2) * 16 + 1 * k.val = k.val; omega
    | ⟨1, _⟩ => show win2_1.index t (1 : Fin 2) * 16 + 1 * q.val = win2_2.index t (1 : Fin 2) * 16 + 1 * q.val; omega
  rw [hl, hr]

/-- An index of the result array lies in point t's tile exactly when each coordinate lies in the tile's
    range on its axis. -/
private theorem mem_tile (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v46).slice (win2_2.rect t)).set ↔ _
  rw [View.set_slice_whole, Rect.mem_set_unit]
  exact Iff.rfl

/-- The 20 row tiles cover the result array: row n lies in the tile of point n / 5000. -/
private theorem tiles_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e0, e1, e2, e3, e4, e5⟩ := index_facts t
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The second dense transform's result array after its 20 row tiles: entry (n, j) is the sum over the 16 features k of
    x[n, k] · w[k, j], of the hidden array and the weight as the region finds them. -/
theorem array (c : Dev nD) :
    (dat2 (F := Ideal) V c).arrAt 2 cfg2.N = Cert.Spec.lin16 (V c main_v45) (V c main_arg5) :=
  (dat2 (F := Ideal) V c).arrAt_eq_of_cover 2 (Cert.Spec.lin16 (V c main_v45) (V c main_arg5))
    (fun t _ => flushed_eq V c t) tiles_cover

end Cert.KernelIdeal.Lin2

end
-- ==== Proof.Relu1.lean ====
import proofs.«410100_j51196010168909_1_alg».proof.Proof.Gen.KernelIdeal.Frame
import proofs.«410100_j51196010168909_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Relu1

open Cert.KernelIdeal Cert.KernelIdeal.Gen

-- the TensorCore's buffer contents when the region is entered, at the extended reals
variable (V : (c : Dev nD) → (b : Ref sig .tc) → Buf (Elt Ideal) ((c : Thread nD τ).loc b))

/-- The zero offsets of a whole-tile access, as the constant function. -/
private theorem zero_offsets : (![0, 0] : Fin 2 → Nat) = fun _ => 0 := funext fun a => by fin_cases a <;> rfl

/-- The tile's arithmetic at an entry: entry j of the result is max (x0[j] + x1[k]) 0, where k is the entry of the
    1 × 16 bias row in j's column. The two same-shape casts are identities, the row is repeated down the 5000 rows,
    the sum and the maximum are entrywise, and the zero word denotes 0. -/
private theorem tile_apply (x0 : Vec Ideal S5000x16 .f32) (x1 : Vec Ideal S1x16 .f32) (j : S5000x16.Idx) (k : S1x16.Idx)
    (hk0 : (k 0).val = 0) (hk1 : (k 1).val = (j 1).val) :
    k1_pay1 x0 x1 j = max (x0 j + x1 k) 0 := by
  unfold k1_pay1
  rw [shapeCast_self, shapeCast_self, ValueIdx.maximumf_apply, ValueIdx.addf_apply, ValueIdx.broadcast_apply]
  rw [broadcastTo_apply x1 broadcasts_S1x16_S5000x16 j k (fun a => by
    match a with
    | ⟨0, _⟩ => exact hk0
    | ⟨1, _⟩ => exact hk1)]
  show max (x0 j + x1 k) (Ideal.ofBits .f32 0x00000000#32) = _
  rw [Ideal.ofBits_zero_f32]

/-- The block indices over the 20 points: the input's row tile is the output's, which is the point's number; the
    column block is always 0; the bias row's block is (0, 0) at every point. -/
private theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is row tile t of the bias-and-clamp of the two arrays: entry (p, q) of the tile is array
    entry (5000 t + p, q); the input tile sits at the same rows, and the bias row is read at (0, q). -/
private theorem tile_written (c : Dev nD) (t : Fin cfg1.N) :
    (dat1 (F := Ideal) V c).flushed 2 t
      = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S1x16) zero_offsets]
  obtain ⟨e0, e1, e2, e3, e4, e5⟩ := block_indices t
  funext j
  have hj0 : (j 0).val < 5000 := (j 0).isLt
  have hj1 : (j 1).val < 16 := (j 1).isLt
  show k1_pay1 (iblk1 V c 0 t) (iblk1 V c 1 t) j
    = Cert.Spec.biasRelu (V c main_v43) (V c main_v44) (((cfg1.win 2).blk t).view.emb j)
  refine (tile_apply (iblk1 V c 0 t) (iblk1 V c 1 t) j
    (fun a => match a with | ⟨0, _⟩ => ⟨0, Nat.one_pos⟩ | ⟨1, _⟩ => ⟨(j 1).val, hj1⟩) rfl rfl).trans ?_
  unfold Cert.Spec.biasRelu
  refine congrArg (fun z => max z 0) (congrArg₂ (· + ·) ?_ ?_)
  · -- the input tile's entry j is the array's entry at the output tile's position of j
    unfold iblk1
    rw [View.read_apply]
    show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * (j 1).val = win1_2.index t (1 : Fin 2) * 16 + 1 * (j 1).val; omega
  · -- the bias row's entry (0, q) is the row's entry in the column of the output tile's position of j
    unfold iblk1
    rw [View.read_apply]
    show V c main_v44 (((cfg1.win 1).blk t).view.emb _) = V c main_v44 _
    refine congrArg _ (funext fun a => Fin.ext ?_)
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega

/-- An entry of the array lies in point t's tile iff each coordinate lies in the tile's range on its axis. -/
private theorem mem_tile (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- The 20 row tiles cover the array: row n lies in tile n / 5000, and 5000 · (n / 5000) ≤ n < 5000 · (n / 5000) + 5000. -/
private theorem tiles_cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hlt : (i 0).val / 5000 < cfg1.N := lt_of_lt_of_eq (by omega : (i 0).val / 5000 < 20) N_1.symm
  obtain ⟨e0, e1, e2, e3, e4, e5⟩ := block_indices ⟨(i 0).val / 5000, hlt⟩
  refine ⟨⟨(i 0).val / 5000, hlt⟩, flush1_2 _, ?_⟩
  rw [mem_tile]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hlt⟩ (1 : Fin 2) * 16 ≤ (i 1).val
      ∧ (i 1).val < win1_2.index ⟨(i 0).val / 5000, hlt⟩ (1 : Fin 2) * 16 + 16
    rw [e5]
    omega

/-- The first bias-and-clamp pass's result array after its 20 row tiles: entry (n, j) is max (a[n, j] + b[0, j]) 0 of
    the aggregated array and the bias row as the region finds them. -/
theorem array (c : Dev nD) :
    (dat1 (F := Ideal) V c).arrAt 2 cfg1.N = Cert.Spec.biasRelu (V c main_v43) (V c main_v44) := by
  -- every point writes back its tile of the one whole-array function, and the tiles cover the array
  exact (dat1 V c).arrAt_eq_of_cover 2 (Cert.Spec.biasRelu (V c main_v43) (V c main_v44))
    (fun t _ => tile_written V c t) tiles_cover

end Cert.KernelIdeal.Relu1

end
-- ==== Proof.Relu3.lean ====
import proofs.«410100_j51196010168909_1_alg».proof.Proof.Gen.KernelIdeal.Frame
import proofs.«410100_j51196010168909_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Relu3

open Cert.KernelIdeal Cert.KernelIdeal.Gen

-- the TensorCore's buffer contents when the region is entered, at the extended reals
variable (V : (c : Dev nD) → (b : Ref sig .tc) → Buf (Elt Ideal) ((c : Thread nD τ).loc b))

/-- The zero offsets of a whole-tile access, as the constant function. -/
private theorem zero_offsets : (![0, 0] : Fin 2 → Nat) = fun _ => 0 := funext fun a => by fin_cases a <;> rfl

/-- The tile's arithmetic at an entry: entry j of the result is max (x0[j] + x1[k]) 0, where k is the entry of the
    1 × 16 bias row in j's column. The two same-shape casts are identities, the row is repeated down the 5000 rows,
    the sum and the maximum are entrywise, and the zero word denotes 0. -/
private theorem tile_apply (x0 : Vec Ideal S5000x16 .f32) (x1 : Vec Ideal S1x16 .f32) (j : S5000x16.Idx) (k : S1x16.Idx)
    (hk0 : (k 0).val = 0) (hk1 : (k 1).val = (j 1).val) :
    k3_pay1 x0 x1 j = max (x0 j + x1 k) 0 := by
  unfold k3_pay1
  rw [shapeCast_self, shapeCast_self, ValueIdx.maximumf_apply, ValueIdx.addf_apply, ValueIdx.broadcast_apply]
  rw [broadcastTo_apply x1 broadcasts_S1x16_S5000x16 j k (fun a => by
    match a with
    | ⟨0, _⟩ => exact hk0
    | ⟨1, _⟩ => exact hk1)]
  show max (x0 j + x1 k) (Ideal.ofBits .f32 0x00000000#32) = _
  rw [Ideal.ofBits_zero_f32]

/-- The block indices over the 20 points: the input's row tile is the output's, which is the point's number; the
    column block is always 0; the bias row's block is (0, 0) at every point. -/
private theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is row tile t of the bias-and-clamp of the two arrays: entry (p, q) of the tile is array
    entry (5000 t + p, q); the input tile sits at the same rows, and the bias row is read at (0, q). -/
private theorem tile_written (c : Dev nD) (t : Fin cfg3.N) :
    (dat3 (F := Ideal) V c).flushed 2 t
      = ((cfg3.win 2).blk t).view.read (Elt Ideal) (Cert.Spec.biasRelu (V c main_v59) (V c main_v60)) := by
  show (cfg3.win 2).cut (grid3.coords t) ((dat3 V c).after 2 t) = _
  rw [after3_2]
  unfold out3_2
  rw [View.canon_unit_zero zero_offsets]
  simp only [View.ld_unit_zero (S := S5000x16) zero_offsets, View.ld_unit_zero (S := S1x16) zero_offsets]
  obtain ⟨e0, e1, e2, e3, e4, e5⟩ := block_indices t
  funext j
  have hj0 : (j 0).val < 5000 := (j 0).isLt
  have hj1 : (j 1).val < 16 := (j 1).isLt
  show k3_pay1 (iblk3 V c 0 t) (iblk3 V c 1 t) j
    = Cert.Spec.biasRelu (V c main_v59) (V c main_v60) (((cfg3.win 2).blk t).view.emb j)
  refine (tile_apply (iblk3 V c 0 t) (iblk3 V c 1 t) j
    (fun a => match a with | ⟨0, _⟩ => ⟨0, Nat.one_pos⟩ | ⟨1, _⟩ => ⟨(j 1).val, hj1⟩) rfl rfl).trans ?_
  unfold Cert.Spec.biasRelu
  refine congrArg (fun z => max z 0) (congrArg₂ (· + ·) ?_ ?_)
  · -- the input tile's entry j is the array's entry at the output tile's position of j
    unfold iblk3
    rw [View.read_apply]
    show V c main_v59 (((cfg3.win 0).blk t).view.emb j) = V c main_v59 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * (j 1).val = win3_2.index t (1 : Fin 2) * 16 + 1 * (j 1).val; omega
  · -- the bias row's entry (0, q) is the row's entry in the column of the output tile's position of j
    unfold iblk3
    rw [View.read_apply]
    show V c main_v60 (((cfg3.win 1).blk t).view.emb _) = V c main_v60 _
    refine congrArg _ (funext fun a => Fin.ext ?_)
    match a with
    | ⟨0, _⟩ => show win3_1.index t (0 : Fin 2) * 1 + 1 * 0 = 0; omega
    | ⟨1, _⟩ => show win3_1.index t (1 : Fin 2) * 16 + 1 * (j 1).val = win3_2.index t (1 : Fin 2) * 16 + 1 * (j 1).val; omega

/-- An entry of the array lies in point t's tile iff each coordinate lies in the tile's range on its axis. -/
private theorem mem_tile (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v61).slice (win3_2.rect t)).set ↔ _
  rw [View.set_slice_whole, Rect.mem_set_unit]
  exact Iff.rfl

/-- The 20 row tiles cover the array: row n lies in tile n / 5000, and 5000 · (n / 5000) ≤ n < 5000 · (n / 5000) + 5000. -/
private theorem tiles_cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hlt : (i 0).val / 5000 < cfg3.N := lt_of_lt_of_eq (by omega : (i 0).val / 5000 < 20) N_3.symm
  obtain ⟨e0, e1, e2, e3, e4, e5⟩ := block_indices ⟨(i 0).val / 5000, hlt⟩
  refine ⟨⟨(i 0).val / 5000, hlt⟩, flush3_2 _, ?_⟩
  rw [mem_tile]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hlt⟩ (1 : Fin 2) * 16 ≤ (i 1).val
      ∧ (i 1).val < win3_2.index ⟨(i 0).val / 5000, hlt⟩ (1 : Fin 2) * 16 + 16
    rw [e5]
    omega

/-- The second bias-and-clamp pass's result array after its 20 row tiles: entry (n, j) is max (a[n, j] + b[0, j]) 0 of
    the aggregated array and the bias row as the region finds them. -/
theorem array (c : Dev nD) :
    (dat3 (F := Ideal) V c).arrAt 2 cfg3.N = Cert.Spec.biasRelu (V c main_v59) (V c main_v60) := by
  -- every point writes back its tile of the one whole-array function, and the tiles cover the array
  exact (dat3 V c).arrAt_eq_of_cover 2 (Cert.Spec.biasRelu (V c main_v59) (V c main_v60))
    (fun t _ => tile_written V c t) tiles_cover

end Cert.KernelIdeal.Relu3

end
-- ==== Proof.Pool4Pieces.lean ====
import proofs.«410100_j51196010168909_1_alg».proof.Proof.Gen.KernelIdeal.Frame
import proofs.«410100_j51196010168909_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pool4

open Cert.KernelIdeal Cert.KernelIdeal.Gen

/-- Entry (0, r) of a tile's row of ids. -/
abbrev idAt (r : Fin 2560) : S1x2560.Idx := fun a => match a with
  | ⟨0, _⟩ => ⟨0, Nat.one_pos⟩
  | ⟨1, _⟩ => ⟨r.val, r.isLt⟩
/-- Entry (r, j) of a tile of node rows. -/
abbrev rowAt (r : Fin 2560) (j : Fin 16) : S2560x16.Idx := fun a => match a with
  | ⟨0, _⟩ => ⟨r.val, r.isLt⟩
  | ⟨1, _⟩ => ⟨j.val, j.isLt⟩

/-- One tile's contribution to the pooled sums: graph g's row gains the tile's rows whose id is the word g. -/
def tileSum (x0 : Vec Ideal S2560x16 .f32) (x1 : Vec Ideal S1x2560 .i32) : S512x16.Idx → EReal :=
  fun i => ∑ r : Fin 2560, Cert.Spec.hot (i 0).val (x1 (idAt r)) * x0 (rowAt r ⟨(i 1).val, (i 1).isLt⟩)

/-- One tile's contribution to the counts: the number of the tile's rows whose id is the word g. -/
def tileCnt (x1 : Vec Ideal S1x2560 .i32) : S512x1.Idx → EReal :=
  fun i => ∑ r : Fin 2560, Cert.Spec.hot (i 0).val (x1 (idAt r))

/-! ## The payloads at an index -/

private theorem hz : (![0, 0] : Fin 2 → Nat) = fun _ => 0 := funext fun a => by fin_cases a <;> rfl

/-- The 1-bit equality test, widened to 32 bits and read as a signed integer, is the indicator of equality. -/
private theorem hot_scalar (g : Nat) (w : BitVec 32) :
    ((((IntOp.cmpi .eq (BitVec.ofNat 32 g) w).setWidth 32).toInt : ℝ) : EReal) = Cert.Spec.hot g w := by
  unfold Cert.Spec.hot IntOp.cmpi
  dsimp only
  by_cases h : BitVec.ofNat 32 g = w
  · have e : (BitVec.ofNat 32 g == w) = true := by simpa using h
    have t : ((BitVec.ofBool true).setWidth 32).toInt = 1 := by decide
    rw [if_pos h, e, t]
    norm_num
  · have e : (BitVec.ofNat 32 g == w) = false := by simpa using h
    have t : ((BitVec.ofBool false).setWidth 32).toInt = 0 := by decide
    rw [if_neg h, e, t]
    norm_num

/-- The row-number block read at (g, r): the word g. -/
private theorem rows_bcast_apply (g : Fin 512) (r : Fin 2560) :
    broadcastTo S512x2560 (iota Kind.tc S512x1 32 [0] iota_S512x1_d0_w32) broadcasts_S512x1_S512x2560 (ValueIdx.ix2 g r)
      = BitVec.ofNat 32 g.val := by
  refine (broadcastTo_apply _ broadcasts_S512x1_S512x2560 (ValueIdx.ix2 g r) (ValueIdx.ix2 g (⟨0, Nat.one_pos⟩ : Fin 1)) (fun a => ?_)).trans ?_
  · match a with
    | ⟨0, _⟩ => rfl
    | ⟨1, _⟩ => rfl
  · exact iota_single_apply _ _ _ _ _ _

/-- The id block read at (g, r): row r's id. -/
private theorem ids_bcast_apply (x1 : Vec Ideal S1x2560 .i32) (g : Fin 512) (r : Fin 2560) :
    broadcastTo S512x2560 (shapeCast S1x2560 x1 shapeCasts_S1x2560_S1x2560) broadcasts_S1x2560_S512x2560 (ValueIdx.ix2 g r)
      = x1 (idAt r) := by
  rw [shapeCast_self]
  exact broadcastTo_apply x1 broadcasts_S1x2560_S512x2560 (ValueIdx.ix2 g r) (idAt r) (fun a => match a with
    | ⟨0, _⟩ => rfl
    | ⟨1, _⟩ => rfl)

/-- Entry (g, r) of the one-hot block, as a real: 1 when row r's id is the word g, else 0. -/
private theorem onehot_apply (x1 : Vec Ideal S1x2560 .i32) (g : Fin 512) (r : Fin 2560) :
    (sitofp .f32 (extui 32 (k4_pay3 (F := Ideal) x1) natLt_1_32) : FVec Ideal S512x2560 .f32) (ValueIdx.ix2 g r)
      = Cert.Spec.hot g.val (x1 (idAt r)) := by
  refine Eq.trans ?_ (hot_scalar g.val (x1 (idAt r)))
  unfold k4_pay3
  exact congrArg (fun b : BitVec 1 => (((b.setWidth 32).toInt : ℝ) : EReal))
    (congrArg₂ (IntOp.cmpi .eq) (rows_bcast_apply g r) (ids_bcast_apply x1 g r))

/-- The contraction's operand indices, axis by axis: the one-hot block is read at (row of the output, k), the node rows at (k, column of the output). -/
private theorem lhs_pool_0 (i : S512x16.Idx) (q : dot_S512x2560_S2560x16_S512x16_1_0_0_1_n_n.contr.Idx) :
    (dot_S512x2560_S2560x16_S512x16_1_0_0_1_n_n.lhsIdx i q 0).val = (i 0).val := by
  unfold DotDims.lhsIdx
  rw [dif_neg (show ¬(0 : Fin S512x2560.rank) ∈ dot_S512x2560_S2560x16_S512x16_1_0_0_1_n_n.lhsBatch by decide), dif_pos (show (0 : Fin S512x2560.rank) ∈ dot_S512x2560_S2560x16_S512x16_1_0_0_1_n_n.lhsNonContracting by decide)]
  rfl
private theorem lhs_pool_1 (i : S512x16.Idx) (q : dot_S512x2560_S2560x16_S512x16_1_0_0_1_n_n.contr.Idx) :
    (dot_S512x2560_S2560x16_S512x16_1_0_0_1_n_n.lhsIdx i q 1).val = (q ⟨0, by decide⟩).val :=
  dot_S512x2560_S2560x16_S512x16_1_0_0_1_n_n.lhsIdx_val_of_single rfl i q
private theorem rhs_pool_0 (i : S512x16.Idx) (q : dot_S512x2560_S2560x16_S512x16_1_0_0_1_n_n.contr.Idx) :
    (dot_S512x2560_S2560x16_S512x16_1_0_0_1_n_n.rhsIdx i q 0).val = (q ⟨0, by decide⟩).val :=
  dot_S512x2560_S2560x16_S512x16_1_0_0_1_n_n.rhsIdx_val_of_single rfl i q
private theorem rhs_pool_1 (i : S512x16.Idx) (q : dot_S512x2560_S2560x16_S512x16_1_0_0_1_n_n.contr.Idx) :
    (dot_S512x2560_S2560x16_S512x16_1_0_0_1_n_n.rhsIdx i q 1).val = (i 1).val := by
  unfold DotDims.rhsIdx
  rw [dif_neg (show ¬(1 : Fin S2560x16.rank) ∈ dot_S512x2560_S2560x16_S512x16_1_0_0_1_n_n.rhsBatch by decide), dif_pos (show (1 : Fin S2560x16.rank) ∈ dot_S512x2560_S2560x16_S512x16_1_0_0_1_n_n.rhsNonContracting by decide)]
  rfl

/-- The sum payload at (g, col): the running entry plus, over the tile's rows, the one-hot entry times the row's entry
    (the product of the one-hot block with the node rows, into a zero accumulator; the narrowing is the identity here). -/
private theorem pay4_at (x1 : Vec Ideal S1x2560 .i32) (xo2 : Vec Ideal S512x16 .f32) (x0 : Vec Ideal S2560x16 .f32) (g : Fin 512) (col : Fin 16) :
    k4_pay4 (F := Ideal) x1 xo2 x0 (ValueIdx.ix2 g col)
      = xo2 (ValueIdx.ix2 g col) + ∑ r : Fin 2560, Cert.Spec.hot g.val (x1 (idAt r)) * x0 (rowAt r col) := by
  unfold k4_pay4
  refine (ValueIdx.addf_apply _ _ _).trans ?_
  rw [shapeCast_self, shapeCast_self]
  refine congrArg (xo2 (ValueIdx.ix2 g col) + ·) ?_
  refine (Ideal.matmul_constant_zero_apply dot_S512x2560_S2560x16_S512x16_1_0_0_1_n_n none _ _ (ValueIdx.ix2 g col)).trans ?_
  rw [← Equiv.sum_comp (ValueIdx.contrEquiv1 dot_S512x2560_S2560x16_S512x16_1_0_0_1_n_n 2560 rfl rfl).symm]
  refine Finset.sum_congr rfl fun k _ => ?_
  have hk := ValueIdx.contrEquiv1_symm_val dot_S512x2560_S2560x16_S512x16_1_0_0_1_n_n 2560 rfl rfl k
  have el : dot_S512x2560_S2560x16_S512x16_1_0_0_1_n_n.lhsIdx (ValueIdx.ix2 g col) ((ValueIdx.contrEquiv1 dot_S512x2560_S2560x16_S512x16_1_0_0_1_n_n 2560 rfl rfl).symm k) = ValueIdx.ix2 g k := funext fun a => Fin.ext (by
    match a with
    | ⟨0, _⟩ => exact lhs_pool_0 _ _
    | ⟨1, _⟩ => exact (lhs_pool_1 _ _).trans hk)
  have er : dot_S512x2560_S2560x16_S512x16_1_0_0_1_n_n.rhsIdx (ValueIdx.ix2 g col) ((ValueIdx.contrEquiv1 dot_S512x2560_S2560x16_S512x16_1_0_0_1_n_n 2560 rfl rfl).symm k) = rowAt k col := funext fun a => Fin.ext (by
    match a with
    | ⟨0, _⟩ => exact (rhs_pool_0 _ _).trans hk
    | ⟨1, _⟩ => exact rhs_pool_1 _ _)
  rw [el, er]
  exact congrArg (· * x0 (rowAt k col)) (onehot_apply x1 g k)

private theorem pay4_eq (x1 : Vec Ideal S1x2560 .i32) (xo2 : Vec Ideal S512x16 .f32) (x0 : Vec Ideal S2560x16 .f32) :
    k4_pay4 (F := Ideal) x1 xo2 x0 = fun j => (xo2 j : EReal) + tileSum x0 x1 j := by
  funext j
  obtain ⟨g, col, rfl⟩ : ∃ (g : Fin 512) (col : Fin 16), j = ValueIdx.ix2 g col := ⟨j 0, j 1, ValueIdx.eq_ix2 j⟩
  exact pay4_at x1 xo2 x0 g col

/-- The count payload at (g, 0): the running count plus the number of the tile's rows whose id is the word g
    (the lane sum of the one-hot block's row g, viewed as a column). -/
private theorem pay5_at (x1 : Vec Ideal S1x2560 .i32) (xo3 : Vec Ideal S512x1 .f32) (g : Fin 512) (z : Fin 1) :
    k4_pay5 (F := Ideal) x1 xo3 (ValueIdx.ix2 g z)
      = xo3 (ValueIdx.ix2 g z) + ∑ r : Fin 2560, Cert.Spec.hot g.val (x1 (idAt r)) := by
  unfold k4_pay5
  refine (ValueIdx.addf_apply _ _ _).trans ?_
  rw [shapeCast_self]
  refine congrArg (xo3 (ValueIdx.ix2 g z) + ·) ?_
  refine (shapeCast_apply _ shapeCasts_S512_S512x1 (ValueIdx.ix2 g z) (ValueIdx.ix1 g) ?_).trans ?_
  · rw [Shape.rowMajor_val_one, Shape.rowMajor_val_two]
    have hzv : z.val = 0 := by omega
    show g.val = g.val * 1 + z.val
    omega
  refine (Ideal.multiReduction_add_single (φ := .f32) _ _ reduces_S512x2560_S512 _ _ (ValueIdx.ix1 g)).trans ?_
  refine Finset.sum_congr rfl fun k _ => ?_
  have e : reduces_S512x2560_S512.lift (ValueIdx.ix1 g) k = ValueIdx.ix2 g k := funext fun a => Fin.ext (by
    match a with
    | ⟨0, _⟩ => rfl
    | ⟨1, _⟩ => rfl)
  rw [e]
  exact onehot_apply x1 g k

private theorem pay5_eq (x1 : Vec Ideal S1x2560 .i32) (xo3 : Vec Ideal S512x1 .f32) :
    k4_pay5 (F := Ideal) x1 xo3 = fun j => (xo3 j : EReal) + tileCnt x1 j := by
  funext j
  obtain ⟨g, z, rfl⟩ : ∃ (g : Fin 512) (z : Fin 1), j = ValueIdx.ix2 g z := ⟨j 0, j 1, ValueIdx.eq_ix2 j⟩
  exact pay5_at x1 xo3 g z

/-- The reset stores the zero block. -/
private theorem pay1_eq : k4_pay1 (F := Ideal) = fun _ => (0 : EReal) := by
  funext j
  unfold k4_pay1
  exact Ideal.ofBits_zero_f32
private theorem pay2_eq : k4_pay2 (F := Ideal) = fun _ => (0 : EReal) := by
  funext j
  unfold k4_pay2
  exact Ideal.ofBits_zero_f32

/-! ## The four pieces -/

/-- At the first tile the sums are reset to zero, read back, and the tile's contribution added. -/
theorem out_A_2 (c : Dev nD) (i : grid4.Coords) (a1 : Memref sig .tc .vmem S2560x16 .f32) (h1 : a1.IsWhole) (a2 : Memref sig .tc .vmem S1x2560 .i32) (h2 : a2.IsWhole) (a3 : Memref sig .tc .vmem S512x16 .f32) (h3 : a3.IsWhole) (a4 : Memref sig .tc .vmem S512x1 .f32) (h4 : a4.IsWhole) (hc : cond4_0 i)
    (x0 : Vec Ideal S2560x16 .f32) (x1 : Vec Ideal S1x2560 .i32) :
    out4_A_2 (F := Ideal) c i a1 h1 a2 h2 a3 h3 a4 h4 hc x0 x1 = fun j => (0 : EReal) + tileSum x0 x1 j := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S512x16) hz, View.readCov_unit_zero (S := S512x16) _ hz]
  simp only [View.readAt_eq_ld, h1.read_unread, h2.read_unread,
    View.ld_unit_zero (S := S2560x16) hz, View.ld_unit_zero (S := S1x2560) hz]
  rw [pay4_eq, pay1_eq]

/-- At the first tile the counts are reset to zero, read back, and the tile's count added. -/
theorem out_A_3 (c : Dev nD) (i : grid4.Coords) (a1 : Memref sig .tc .vmem S2560x16 .f32) (h1 : a1.IsWhole) (a2 : Memref sig .tc .vmem S1x2560 .i32) (h2 : a2.IsWhole) (a3 : Memref sig .tc .vmem S512x16 .f32) (h3 : a3.IsWhole) (a4 : Memref sig .tc .vmem S512x1 .f32) (h4 : a4.IsWhole) (hc : cond4_0 i)
    (x0 : Vec Ideal S2560x16 .f32) (x1 : Vec Ideal S1x2560 .i32) :
    out4_A_3 (F := Ideal) c i a1 h1 a2 h2 a3 h3 a4 h4 hc x0 x1 = fun j => (0 : EReal) + tileCnt x1 j := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S512x1) hz, View.readCov_unit_zero (S := S512x1) _ hz]
  simp only [View.readAt_eq_ld, h2.read_unread, View.ld_unit_zero (S := S1x2560) hz]
  rw [pay5_eq, pay2_eq]

/-- At a later tile the running sums gain the tile's contribution. -/
theorem out_B_2 (c : Dev nD) (i : grid4.Coords) (a1 : Memref sig .tc .vmem S2560x16 .f32) (h1 : a1.IsWhole) (a2 : Memref sig .tc .vmem S1x2560 .i32) (h2 : a2.IsWhole) (a3 : Memref sig .tc .vmem S512x16 .f32) (h3 : a3.IsWhole) (a4 : Memref sig .tc .vmem S512x1 .f32) (h4 : a4.IsWhole) (hc : ¬cond4_0 i)
    (x0 : Vec Ideal S2560x16 .f32) (x1 : Vec Ideal S1x2560 .i32) (xo2 : Vec Ideal S512x16 .f32) (xo3 : Vec Ideal S512x1 .f32) :
    out4_B_2 (F := Ideal) c i a1 h1 a2 h2 a3 h3 a4 h4 hc x0 x1 xo2 xo3 = fun j => (xo2 j : EReal) + tileSum x0 x1 j := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h3.read_unread, h4.read_unread,
    View.ld_unit_zero (S := S2560x16) hz, View.ld_unit_zero (S := S1x2560) hz, View.ld_unit_zero (S := S512x16) hz,
    View.ld_unit_zero (S := S512x1) hz]
  exact pay4_eq x1 xo2 x0

/-- At a later tile the running counts gain the tile's count. -/
theorem out_B_3 (c : Dev nD) (i : grid4.Coords) (a1 : Memref sig .tc .vmem S2560x16 .f32) (h1 : a1.IsWhole) (a2 : Memref sig .tc .vmem S1x2560 .i32) (h2 : a2.IsWhole) (a3 : Memref sig .tc .vmem S512x16 .f32) (h3 : a3.IsWhole) (a4 : Memref sig .tc .vmem S512x1 .f32) (h4 : a4.IsWhole) (hc : ¬cond4_0 i)
    (x0 : Vec Ideal S2560x16 .f32) (x1 : Vec Ideal S1x2560 .i32) (xo2 : Vec Ideal S512x16 .f32) (xo3 : Vec Ideal S512x1 .f32) :
    out4_B_3 (F := Ideal) c i a1 h1 a2 h2 a3 h3 a4 h4 hc x0 x1 xo2 xo3 = fun j => (xo3 j : EReal) + tileCnt x1 j := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h3.read_unread, h4.read_unread,
    View.ld_unit_zero (S := S2560x16) hz, View.ld_unit_zero (S := S1x2560) hz, View.ld_unit_zero (S := S512x16) hz,
    View.ld_unit_zero (S := S512x1) hz]
  exact pay5_eq x1 xo3

end Cert.KernelIdeal.Pool4

end
-- ==== Proof.Pool4.lean ====
import proofs.«410100_j51196010168909_1_alg».proof.Proof.Gen.KernelIdeal.Frame
import proofs.«410100_j51196010168909_1_alg».proof.Proof.Spec
import proofs.«410100_j51196010168909_1_alg».proof.Proof.Pool4Pieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Pool4

open Cert.KernelIdeal Cert.KernelIdeal.Gen

-- the TensorCore's buffer contents when the region is entered, at the extended reals
variable (V : (c : Dev nD) → (b : Ref sig .tc) → Buf (Elt Ideal) ((c : Thread nD τ).loc b))

/-- Tile t of the padded node array, as the region's window 0 reads it. -/
private abbrev rowsBlk (c : Dev nD) (t : Fin cfg4.N) : Vec Ideal S2560x16 .f32 := iblk4 (F := Ideal) V c 0 t
/-- Tile t of the padded row of ids, as window 1 reads it. -/
private abbrev idsBlk (c : Dev nD) (t : Fin cfg4.N) : Vec Ideal S1x2560 .i32 := iblk4 (F := Ideal) V c 1 t

/-- The block index maps of the two input windows at every point of the grid: window 0 walks the row tiles,
    window 1 the column tiles. -/
private theorem index_maps : ∀ t : Fin grid4.N, win4_0.index t 0 = t.val ∧ win4_0.index t 1 = 0
    ∧ win4_1.index t 0 = 0 ∧ win4_1.index t 1 = t.val := by decide +kernel

/-- Entry (r, j) of tile t of the node rows is entry (2560 t + r, j) of the padded array. -/
private theorem rows_read (c : Dev nD) (t : Fin cfg4.N) (ht : t.val < 40) (r : Fin 2560) (j : Fin 16) :
    rowsBlk V c t (rowAt r j) = V c main_v63 (Cert.Spec.atP (Cert.Spec.tileRow ⟨t.val, ht⟩ r) j) := by
  show iblk4 (F := Ideal) V c 0 t (rowAt r j) = _
  unfold iblk4
  rw [View.read_apply]
  show V c main_v63 _ = V c main_v63 _
  congr 1
  funext a
  apply Fin.ext
  have hi := index_maps t
  match a with
  | ⟨0, _⟩ =>
    show win4_0.index t 0 * 2560 + 1 * r.val = 2560 * t.val + r.val
    rw [hi.1]; omega
  | ⟨1, _⟩ =>
    show win4_0.index t 1 * 16 + 1 * j.val = j.val
    rw [hi.2.1]; omega

/-- Entry (0, r) of tile t of the ids is entry (0, 2560 t + r) of the padded row of ids. -/
private theorem ids_read (c : Dev nD) (t : Fin cfg4.N) (ht : t.val < 40) (r : Fin 2560) :
    idsBlk V c t (idAt r) = V c main_v64 (Cert.Spec.atPI (Cert.Spec.tileRow ⟨t.val, ht⟩ r)) := by
  show iblk4 (F := Ideal) V c 1 t (idAt r) = _
  unfold iblk4
  rw [View.read_apply]
  show V c main_v64 _ = V c main_v64 _
  congr 1
  funext a
  apply Fin.ext
  have hi := index_maps t
  match a with
  | ⟨0, _⟩ =>
    show win4_1.index t 0 * 1 + 1 * 0 = 0
    rw [hi.2.2.1]
  | ⟨1, _⟩ =>
    show win4_1.index t 1 * 2560 + 1 * r.val = 2560 * t.val + r.val
    rw [hi.2.2.2]; omega

/-- Tile n's contribution to the pooled sums, read off the padded arrays; zero past the last tile. -/
private def sumTerm (hp : FVec Ideal Cert.Spec.PadRows16 .f32) (bp : IVec Cert.Spec.PadIds 32) (n : ℕ) (i : S512x16.Idx) : EReal :=
  if h : n < 40 then
    ∑ r : Fin 2560, Cert.Spec.hot (i 0).val (bp (Cert.Spec.atPI (Cert.Spec.tileRow ⟨n, h⟩ r)))
      * hp (Cert.Spec.atP (Cert.Spec.tileRow ⟨n, h⟩ r) ⟨(i 1).val, (i 1).isLt⟩)
  else 0

/-- Tile n's contribution to the counts, read off the padded row of ids; zero past the last tile. -/
private def cntTerm (bp : IVec Cert.Spec.PadIds 32) (n : ℕ) (i : S512x1.Idx) : EReal :=
  if h : n < 40 then ∑ r : Fin 2560, Cert.Spec.hot (i 0).val (bp (Cert.Spec.atPI (Cert.Spec.tileRow ⟨n, h⟩ r))) else 0

/-- A tile's contribution computed on the window's blocks is the one read off the padded arrays. -/
private theorem tileSum_eq (c : Dev nD) (t : Fin cfg4.N) (i : S512x16.Idx) :
    tileSum (rowsBlk V c t) (idsBlk V c t) i = sumTerm (V c main_v63) (V c main_v64) t.val i := by
  have ht : t.val < 40 := lt_of_lt_of_eq t.isLt (show cfg4.N = 40 from N_4)
  unfold tileSum sumTerm
  rw [dif_pos ht]
  refine Finset.sum_congr rfl fun r _ => ?_
  rw [rows_read V c t ht r ⟨(i 1).val, (i 1).isLt⟩, ids_read V c t ht r]

/-- A tile's count computed on the window's block of ids is the one read off the padded row of ids. -/
private theorem tileCnt_eq (c : Dev nD) (t : Fin cfg4.N) (i : S512x1.Idx) :
    tileCnt (idsBlk V c t) i = cntTerm (V c main_v64) t.val i := by
  have ht : t.val < 40 := lt_of_lt_of_eq t.isLt (show cfg4.N = 40 from N_4)
  unfold tileCnt cntTerm
  rw [dif_pos ht]
  refine Finset.sum_congr rfl fun r _ => ?_
  rw [ids_read V c t ht r]

/-- THE RUNNING SUMS. After point n the sums' staging buffer holds, from zero, the contributions of tiles 0 … n:
    by induction on the point — the first tile resets and adds, each later tile adds to what the one before left. -/
private theorem sums_at (c : Dev nD) : ∀ (n : ℕ) (hn : n < cfg4.N),
    (outsAt4 (F := Ideal) V c n hn).1
      = fun i => (0 : EReal) + ∑ s ∈ Finset.range (n + 1), sumTerm (V c main_v63) (V c main_v64) s i
  | 0, hn => by
    rw [outsAt4_A V c ⟨0, hn⟩ rfl]; dsimp only
    rw [out_A_2 c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) (ms4_3 ⟨0, hn⟩) (hs4_3 ⟨0, hn⟩) ((hcond4_0 ⟨0, hn⟩).mpr rfl)
      (iblk4 (F := Ideal) V c 0 ⟨0, hn⟩) (iblk4 (F := Ideal) V c 1 ⟨0, hn⟩)]
    funext i
    rw [Finset.sum_range_one]
    exact congrArg (fun x => (0 : EReal) + x) (tileSum_eq V c ⟨0, hn⟩ i)
  | n + 1, hn => by
    have hN : cfg4.N = 40 := N_4
    have hB : ¬(⟨n + 1, hn⟩ : Fin cfg4.N).val % 40 = 0 := by dsimp only; omega
    rw [outsAt4_B V c ⟨n + 1, hn⟩ hB]; dsimp only
    rw [out_B_2 c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (ms4_3 ⟨n + 1, hn⟩) (hs4_3 ⟨n + 1, hn⟩) (fun h => hB ((hcond4_0 ⟨n + 1, hn⟩).mp h))
      (iblk4 (F := Ideal) V c 0 ⟨n + 1, hn⟩) (iblk4 (F := Ideal) V c 1 ⟨n + 1, hn⟩)]
    funext i
    have ih := congrFun (sums_at c n (Nat.lt_of_succ_lt hn)) i
    show (outsAt4 (F := Ideal) V c n (Nat.lt_of_succ_lt hn)).1 i
      + tileSum (rowsBlk V c ⟨n + 1, hn⟩) (idsBlk V c ⟨n + 1, hn⟩) i = _
    rw [ih, tileSum_eq V c ⟨n + 1, hn⟩ i, Finset.sum_range_succ _ (n + 1), add_assoc]

/-- THE RUNNING COUNTS, likewise. -/
private theorem cnts_at (c : Dev nD) : ∀ (n : ℕ) (hn : n < cfg4.N),
    (outsAt4 (F := Ideal) V c n hn).2
      = fun i => (0 : EReal) + ∑ s ∈ Finset.range (n + 1), cntTerm (V c main_v64) s i
  | 0, hn => by
    rw [outsAt4_A V c ⟨0, hn⟩ rfl]; dsimp only
    rw [out_A_3 c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) (ms4_3 ⟨0, hn⟩) (hs4_3 ⟨0, hn⟩) ((hcond4_0 ⟨0, hn⟩).mpr rfl)
      (iblk4 (F := Ideal) V c 0 ⟨0, hn⟩) (iblk4 (F := Ideal) V c 1 ⟨0, hn⟩)]
    funext i
    rw [Finset.sum_range_one]
    exact congrArg (fun x => (0 : EReal) + x) (tileCnt_eq V c ⟨0, hn⟩ i)
  | n + 1, hn => by
    have hN : cfg4.N = 40 := N_4
    have hB : ¬(⟨n + 1, hn⟩ : Fin cfg4.N).val % 40 = 0 := by dsimp only; omega
    rw [outsAt4_B V c ⟨n + 1, hn⟩ hB]; dsimp only
    rw [out_B_3 c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (ms4_3 ⟨n + 1, hn⟩) (hs4_3 ⟨n + 1, hn⟩) (fun h => hB ((hcond4_0 ⟨n + 1, hn⟩).mp h))
      (iblk4 (F := Ideal) V c 0 ⟨n + 1, hn⟩) (iblk4 (F := Ideal) V c 1 ⟨n + 1, hn⟩)]
    funext i
    have ih := congrFun (cnts_at c n (Nat.lt_of_succ_lt hn)) i
    show (outsAt4 (F := Ideal) V c n (Nat.lt_of_succ_lt hn)).2 i + tileCnt (idsBlk V c ⟨n + 1, hn⟩) i = _
    rw [ih, tileCnt_eq V c ⟨n + 1, hn⟩ i, Finset.sum_range_succ _ (n + 1), add_assoc]

/-- From zero, the 40 tiles' contributions in tile order are the tiled pooled sums. -/
private theorem all_tiles_sum (hp : FVec Ideal Cert.Spec.PadRows16 .f32) (bp : IVec Cert.Spec.PadIds 32) :
    (fun i => (0 : EReal) + ∑ s ∈ Finset.range (39 + 1), sumTerm hp bp s i) = Cert.Spec.poolSumTiles hp bp := by
  funext i
  rw [zero_add, Finset.sum_range]
  unfold Cert.Spec.poolSumTiles
  refine Finset.sum_congr rfl fun t _ => ?_
  unfold sumTerm
  rw [dif_pos t.isLt]

/-- From zero, the 40 tiles' counts in tile order are the tiled counts. -/
private theorem all_tiles_cnt (bp : IVec Cert.Spec.PadIds 32) :
    (fun i => (0 : EReal) + ∑ s ∈ Finset.range (39 + 1), cntTerm bp s i) = Cert.Spec.poolCntTiles bp := by
  funext i
  rw [zero_add, Finset.sum_range]
  unfold Cert.Spec.poolCntTiles
  refine Finset.sum_congr rfl fun t _ => ?_
  unfold cntTerm
  rw [dif_pos t.isLt]

/-- The last point of the grid, the one whose write-back leaves the result arrays. -/
private abbrev tLast : Fin cfg4.N := ⟨39, by decide⟩

/-- The one write-back of the sums, at the last point, writes the tiled pooled sums: block (0, 0) of the
    512 × 16 array read through zero offsets is the array. -/
private theorem flushed_2 (c : Dev nD) (t : Fin cfg4.N) (hf : (cfg4.win 2).flush t = true) :
    (dat4 (F := Ideal) V c).flushed 2 t
      = ((cfg4.win 2).blk t).view.read (Elt Ideal) (Cert.Spec.poolSumTiles (V c main_v63) (V c main_v64)) := by
  have hN : cfg4.N = 40 := N_4
  have h39 : t.val = 39 := by have := (flush4_2 t).mp hf; have := t.isLt; omega
  obtain rfl : t = tLast := Fin.ext h39
  show (cfg4.win 2).cut (grid4.coords tLast) ((dat4 (F := Ideal) V c).after 2 tLast) = _
  rw [after4_2]
  have e : (outsAt4 (F := Ideal) V c 39 tLast.isLt).1 = Cert.Spec.poolSumTiles (V c main_v63) (V c main_v64) :=
    (sums_at V c 39 tLast.isLt).trans (all_tiles_sum (V c main_v63) (V c main_v64))
  have hz' : (fun a => win4_2.index tLast a * main_v65_0.ty.shape.size a) = fun _ => 0 :=
    funext fun a => by fin_cases a <;> decide +kernel
  show (outsAt4 (F := Ideal) V c 39 tLast.isLt).1 = _
  rw [e]
  exact (Memref.read_access_unit_zero (Elt Ideal) main_v65_0 hz' (fun a => by rw [congrFun hz' a]; simp)
    (Cert.Spec.poolSumTiles (V c main_v63) (V c main_v64))).symm

/-- The one write-back of the counts, at the last point, writes the tiled counts. -/
private theorem flushed_3 (c : Dev nD) (t : Fin cfg4.N) (hf : (cfg4.win 3).flush t = true) :
    (dat4 (F := Ideal) V c).flushed 3 t
      = ((cfg4.win 3).blk t).view.read (Elt Ideal) (Cert.Spec.poolCntTiles (V c main_v64)) := by
  have hN : cfg4.N = 40 := N_4
  have h39 : t.val = 39 := by have := (flush4_3 t).mp hf; have := t.isLt; omega
  obtain rfl : t = tLast := Fin.ext h39
  show (cfg4.win 3).cut (grid4.coords tLast) ((dat4 (F := Ideal) V c).after 3 tLast) = _
  rw [after4_3]
  have e : (outsAt4 (F := Ideal) V c 39 tLast.isLt).2 = Cert.Spec.poolCntTiles (V c main_v64) :=
    (cnts_at V c 39 tLast.isLt).trans (all_tiles_cnt (V c main_v64))
  have hz' : (fun a => win4_3.index tLast a * main_v65_1.ty.shape.size a) = fun _ => 0 :=
    funext fun a => by fin_cases a <;> decide +kernel
  show (outsAt4 (F := Ideal) V c 39 tLast.isLt).2 = _
  rw [e]
  exact (Memref.read_access_unit_zero (Elt Ideal) main_v65_1 hz' (fun a => by rw [congrFun hz' a]; simp)
    (Cert.Spec.poolCntTiles (V c main_v64))).symm

/-- The pooled sums after the 40 tiles: graph g's row is, tile after tile from zero, the sum over the tile's 2560 rows r
    of (one when row r's id is the word g, else zero) · the row. -/
theorem sums (c : Dev nD) :
    (dat4 (F := Ideal) V c).arrAt 2 cfg4.N = Cert.Spec.poolSumTiles (V c main_v63) (V c main_v64) :=
  (dat4 (F := Ideal) V c).arrAt_eq_of_cover 2 (Cert.Spec.poolSumTiles (V c main_v63) (V c main_v64)) (flushed_2 V c) fun i =>
    ⟨tLast, (flush4_2 tLast).mpr rfl, by
      -- every index of the 512 × 16 array lies in the last point's block, which is the whole array
      show i ∈ ((View.whole main_v65_0).slice (win4_2.rect tLast)).set
      rw [View.set_slice_whole, Rect.mem_set_unit]
      intro a
      have h0 : (i 0 : Nat) < 512 := (i 0).isLt
      have h1 : (i 1 : Nat) < 16 := (i 1).isLt
      match a with
      | ⟨0, _⟩ =>
        show win4_2.index tLast 0 * win4_2.size 0 ≤ (i 0 : Nat)
          ∧ (i 0 : Nat) < win4_2.index tLast 0 * win4_2.size 0 + win4_2.xsize (grid4.coords tLast) 0
        rw [show win4_2.index tLast 0 * win4_2.size 0 = 0 from by decide +kernel,
          show win4_2.xsize (grid4.coords tLast) 0 = 512 from by decide +kernel]; omega
      | ⟨1, _⟩ =>
        show win4_2.index tLast 1 * win4_2.size 1 ≤ (i 1 : Nat)
          ∧ (i 1 : Nat) < win4_2.index tLast 1 * win4_2.size 1 + win4_2.xsize (grid4.coords tLast) 1
        rw [show win4_2.index tLast 1 * win4_2.size 1 = 0 from by decide +kernel,
          show win4_2.xsize (grid4.coords tLast) 1 = 16 from by decide +kernel]; omega⟩

/-- The pooled counts after the 40 tiles: graph g's count is, tile after tile from zero, the number of the tile's rows
    whose id is the word g. -/
theorem counts (c : Dev nD) :
    (dat4 (F := Ideal) V c).arrAt 3 cfg4.N = Cert.Spec.poolCntTiles (V c main_v64) :=
  (dat4 (F := Ideal) V c).arrAt_eq_of_cover 3 (Cert.Spec.poolCntTiles (V c main_v64)) (flushed_3 V c) fun i =>
    ⟨tLast, (flush4_3 tLast).mpr rfl, by
      -- every index of the 512 × 1 array lies in the last point's block, which is the whole array
      show i ∈ ((View.whole main_v65_1).slice (win4_3.rect tLast)).set
      rw [View.set_slice_whole, Rect.mem_set_unit]
      intro a
      have h0 : (i 0 : Nat) < 512 := (i 0).isLt
      have h1 : (i 1 : Nat) < 1 := (i 1).isLt
      match a with
      | ⟨0, _⟩ =>
        show win4_3.index tLast 0 * win4_3.size 0 ≤ (i 0 : Nat)
          ∧ (i 0 : Nat) < win4_3.index tLast 0 * win4_3.size 0 + win4_3.xsize (grid4.coords tLast) 0
        rw [show win4_3.index tLast 0 * win4_3.size 0 = 0 from by decide +kernel,
          show win4_3.xsize (grid4.coords tLast) 0 = 512 from by decide +kernel]; omega
      | ⟨1, _⟩ =>
        show win4_3.index tLast 1 * win4_3.size 1 ≤ (i 1 : Nat)
          ∧ (i 1 : Nat) < win4_3.index tLast 1 * win4_3.size 1 + win4_3.xsize (grid4.coords tLast) 1
        rw [show win4_3.index tLast 1 * win4_3.size 1 = 0 from by decide +kernel,
          show win4_3.xsize (grid4.coords tLast) 1 = 1 from by decide +kernel]; omega⟩

end Cert.KernelIdeal.Pool4

end
-- ==== Proof.Chain.lean ====
/-
  The idealized kernel program's result is the idealized reference's, stage by stage.
  Both programs prepare the same edge data (edges with self-loops, the symmetric normalization) by the same host
  operations, so the boundary contents at those buffers ARE the reference's stages. From there, layer by layer:
  a dense transform's region fills its array with the row-by-column sums, which is the reference's contraction; the
  aggregation between regions is one shared function of the edge data and the rows; a bias-and-clamp region is the
  reference's add and maximum; and the pooling region's tile-by-tile one-hot sums over the padded arrays are the
  reference's scatter-adds by graph id, the padding contributing nothing. The closing division is shared.
-/
import proofs.«410100_j51196010168909_1_alg».proof.Proof.Bound
import proofs.«410100_j51196010168909_1_alg».proof.Proof.EdgeData
import proofs.«410100_j51196010168909_1_alg».proof.Proof.RefRead
import proofs.«410100_j51196010168909_1_alg».proof.Proof.RefBridge
import proofs.«410100_j51196010168909_1_alg».proof.Proof.HostTerms
import proofs.«410100_j51196010168909_1_alg».proof.Proof.PoolPad
import proofs.«410100_j51196010168909_1_alg».proof.Proof.Lin0
import proofs.«410100_j51196010168909_1_alg».proof.Proof.Lin2
import proofs.«410100_j51196010168909_1_alg».proof.Proof.Relu1
import proofs.«410100_j51196010168909_1_alg».proof.Proof.Relu3
import proofs.«410100_j51196010168909_1_alg».proof.Proof.Pool4

set_option maxRecDepth 16384

noncomputable section

namespace Cert.KernelIdeal.Chain

open Cert.KernelIdeal Cert.KernelIdeal.Gen Cert.KernelIdeal.Bound Cert.KernelIdeal.EdgeData
open Idealize.ShloMosaic Idealize.ShloMosaic.TcCoe Idealize.SL.Sem Idealize.ShloMosaic.StableHlo
open Cert.ReferenceIdeal.Read (val_main_v3 val_main_v6 val_main_v29 val_main_v30 val_main_v43 val_main_v47 val_main_v48
  val_main_v61 val_main_v65 val_main_v68 val_main_v77)

/-! ## The reference's last two stages, opened one step (at any float family) -/

section Generic

variable {F : FTy → Type} [FloatOps F]

open Cert.ReferenceIdeal in
/-- The reference's pooled sums are its scatter-add of the second layer's rows. -/
theorem v68_open (x0 : FVec F S100000x5 .f32) (x1 : IVec S2x3200000 32) (x2 : IVec S100000 32) (x3 : FVec F S5x16 .f32)
    (x4 : FVec F S16 .f32) (x5 : FVec F S16x16 .f32) (x6 : FVec F S16 .f32) :
    val_main_v68 (F := F) x0 x1 x2 x3 x4 x5 x6
      = Host.scatterAdd Cert.ReferenceIdeal.scatter_S512x16_S100000x1_S100000x16_1_0_0_1 (Cert.ReferenceIdeal.Read.val_main_v66 (F := F))
          (Cert.ReferenceIdeal.Read.val_main_v67 (F := F) x2) (val_main_v65 (F := F) x0 x1 x3 x4 x5 x6) := rfl

/-- The reference's result is its pooled sums over its clamped counts. -/
theorem v77_open (x0 : FVec F S100000x5 .f32) (x1 : IVec S2x3200000 32) (x2 : IVec S100000 32) (x3 : FVec F S5x16 .f32)
    (x4 : FVec F S16 .f32) (x5 : FVec F S16x16 .f32) (x6 : FVec F S16 .f32) :
    val_main_v77 (F := F) x0 x1 x2 x3 x4 x5 x6
      = Host.divf (val_main_v68 (F := F) x0 x1 x2 x3 x4 x5 x6) (Cert.ReferenceIdeal.Read.val_main_v76 (F := F) x2) := rfl

end Generic

/-! ## The layers, at the extended reals -/

variable (m : (ℓ : Loc nD τ sig) → Buf (Elt Ideal) ℓ) (ρ : Dev nD → PrngReg)

/-- After the first region: the first transform. -/
theorem K30 (c : Dev nD) : W4 m ρ c (Proc.devRef .tc main_v30)
    = val_main_v30 (F := Ideal) (m ((c : Thread nD τ).loc main_arg0)) (m ((c : Thread nD τ).loc main_arg3)) := by
  refine (W4_arr m ρ c 2).trans ?_
  rw [Lin0.array (V3 m ρ) c]
  show Cert.Spec.lin5 (W3 m ρ c (Proc.devRef .tc main_arg0)) (W3 m ρ c (Proc.devRef .tc main_arg3)) = _
  rw [W3_arg0, W3_arg3]
  exact (Cert.ReferenceIdeal.Bridge.dot5_eq _ _).symm

/-- Before the second region: the first aggregation. -/
theorem K43 (c : Dev nD) : W5 m ρ c (Proc.devRef .tc main_v43)
    = val_main_v43 (F := Ideal) (m ((c : Thread nD τ).loc main_arg0)) (m ((c : Thread nD τ).loc main_arg1)) (m ((c : Thread nD τ).loc main_arg3)) := by
  rw [W5_v43, W4_v3, W4_v6, W4_v29, W3_v3, W3_v6, W3_v29, K30]
  exact agg_ref43 _ _ _

/-- The first bias row holds the bias. -/
theorem bias1 (c : Dev nD) (j : Fin 16) : W5 m ρ c (Proc.devRef .tc main_v44) (Cert.Spec.atB j)
    = m ((c : Thread nD τ).loc main_arg4) (fun d => match d with | ⟨0, _⟩ => ⟨j.val, j.isLt⟩) := by
  rw [W5_v44, W4_arg4]
  exact (HostTerms.bias_row _ j).trans (congrArg _ (funext fun d => match d with | ⟨0, _⟩ => rfl))

/-- After the second region: the first layer's output. -/
theorem K45 (c : Dev nD) : W6 m ρ c (Proc.devRef .tc main_v45)
    = val_main_v47 (F := Ideal) (m ((c : Thread nD τ).loc main_arg0)) (m ((c : Thread nD τ).loc main_arg1)) (m ((c : Thread nD τ).loc main_arg3)) (m ((c : Thread nD τ).loc main_arg4)) := by
  refine (W6_arr m ρ c 2).trans ?_
  rw [Relu1.array (V5 m ρ) c]
  show Cert.Spec.biasRelu (W5 m ρ c (Proc.devRef .tc main_v43)) (W5 m ρ c (Proc.devRef .tc main_v44)) = _
  rw [K43]
  exact (Cert.ReferenceIdeal.Bridge.biasRelu1_eq _ _ _ (fun j => (bias1 m ρ c j).trans (congrArg _ (funext fun d => match d with | ⟨0, _⟩ => rfl)))).symm

/-- After the third region: the second transform. -/
theorem K46 (c : Dev nD) : W7 m ρ c (Proc.devRef .tc main_v46)
    = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ?_
  rw [Lin2.array (V6 m ρ) c]
  show Cert.Spec.lin16 (W6 m ρ c (Proc.devRef .tc main_v45)) (W6 m ρ c (Proc.devRef .tc main_arg5)) = _
  rw [K45, W6_arg5]
  exact (Cert.ReferenceIdeal.Bridge.dot16_eq _ _).symm

/-- Before the fourth region: the second aggregation. -/
theorem K59 (c : Dev nD) : W8 m ρ c (Proc.devRef .tc main_v59)
    = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [W8_v59, W7_v3, W7_v6, W7_v29, W3_v3, W3_v6, W3_v29, K46]
  exact agg_ref61 _ _ _ _ _

/-- The second bias row holds the bias. -/
theorem bias2 (c : Dev nD) (j : Fin 16) : W8 m ρ c (Proc.devRef .tc main_v60) (Cert.Spec.atB j)
    = m ((c : Thread nD τ).loc main_arg6) (fun d => match d with | ⟨0, _⟩ => ⟨j.val, j.isLt⟩) := by
  rw [W8_v60, W7_arg6]
  exact (HostTerms.bias_row _ j).trans (congrArg _ (funext fun d => match d with | ⟨0, _⟩ => rfl))

/-- After the fourth region: the second layer's output. -/
theorem K61 (c : Dev nD) : W9 m ρ c (Proc.devRef .tc main_v61)
    = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ?_
  rw [Relu3.array (V8 m ρ) c]
  show Cert.Spec.biasRelu (W8 m ρ c (Proc.devRef .tc main_v59)) (W8 m ρ c (Proc.devRef .tc main_v60)) = _
  rw [K59]
  exact (Cert.ReferenceIdeal.Bridge.biasRelu2_eq _ _ _ (fun j => (bias2 m ρ c j).trans (congrArg _ (funext fun d => match d with | ⟨0, _⟩ => rfl)))).symm

/-- The padded node array: the second layer's rows, then zero rows. -/
theorem padded_rows (c : Dev nD) (n : Fin 102400) (j : Fin 16) :
    (W13 m ρ c (Proc.devRef .tc main_v63) (Cert.Spec.atP n j) : EReal)
      = if hn : n.val < 100000 then (W9 m ρ c (Proc.devRef .tc main_v61) (Cert.Spec.at16 ⟨n.val, hn⟩ j) : EReal) else (0 : EReal) := by
  rw [W13_v63]
  exact HostTerms.pad_rows _ n j

/-- The padded ids: the graph ids, then the word −1. -/
theorem padded_ids (c : Dev nD) (n : Fin 102400) :
    (W13 m ρ c (Proc.devRef .tc main_v64) (Cert.Spec.atPI n) : BitVec 32)
      = if hn : n.val < 100000 then (m ((c : Thread nD τ).loc main_arg2) (Cert.Spec.atI ⟨n.val, hn⟩) : BitVec 32) else 4294967295#32 := by
  rw [W13_v64, W9_arg2]
  exact HostTerms.pad_ids _ n

/-- After the pooling region: the pooled sums of the second layer's rows. -/
theorem K65_sums (c : Dev nD) : W14 m ρ c (Proc.devRef .tc main_v65_0)
    = Cert.Spec.poolSum (val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
        (m ((c : Thread nD τ).loc main_arg2)) := by
  refine (W14_arr m ρ c 2).trans ?_
  rw [Pool4.sums (V13 m ρ) c]
  show Cert.Spec.poolSumTiles (W13 m ρ c (Proc.devRef .tc main_v63)) (W13 m ρ c (Proc.devRef .tc main_v64)) = _
  rw [← K61]
  exact Cert.Spec.PoolPad.sums_of_padded _ _ _ _ (padded_rows m ρ c) (padded_ids m ρ c)

/-- After the pooling region: the node counts. -/
theorem K65_counts (c : Dev nD) (i : S512x1.Idx) : W14 m ρ c (Proc.devRef .tc main_v65_1) i
    = Cert.Spec.poolCnt (m ((c : Thread nD τ).loc main_arg2)) (Cert.Spec.grow1 i) := by
  refine (congrFun (W14_arr m ρ c 3) i).trans ?_
  rw [Pool4.counts (V13 m ρ) c]
  show Cert.Spec.poolCntTiles (W13 m ρ c (Proc.devRef .tc main_v64)) i = _
  exact Cert.Spec.PoolPad.counts_of_padded _ _ (padded_ids m ρ c) i

/-- The kernel program's result is the reference's result term of the same arguments. -/
theorem result (c : Dev nD) : W15 m ρ c (Proc.devRef .tc main_v69)
    = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W15_v69, HostTerms.mean_term, K65_sums]
  -- the counts column read at (g, 0) is graph g's node count
  refine (congrArg (Cert.Spec.meanOf _) (funext fun g => (K65_counts m ρ c _).trans
    (congrArg (Cert.Spec.poolCnt (m ((c : Thread nD τ).loc main_arg2))) (Fin.ext rfl)))).trans ?_
  rw [v77_open, Cert.ReferenceIdeal.Bridge.mean_eq, v68_open, Cert.ReferenceIdeal.Bridge.pool_eq]

end Cert.KernelIdeal.Chain

end
-- ==== Proof.lean ====
/-
  The certificate of the two-layer graph convolution with mean pooling: the tiled kernel program against its plain
  reference, over the extended reals.
  The three frames: the kernel program's two readings run by their generated frame certificates (five pipelined regions
  among stretches of host operations), the reference by its run read back. No operation was rewritten by the
  idealization, so there is nothing to preserve. The value claim: the kernel program's run leaves its result array at
  the last boundary's contents, which the chain of stages identifies with the reference's result term of the same
  arguments — dense transforms as row-by-column sums, the shared neighbourhood aggregation, bias and clamp, and the
  pooling by one-hot sums over zero-padded tiles against the scatter-add by graph id.
-/
import proofs.«410100_j51196010168909_1_alg».proof.Defs
import proofs.«410100_j51196010168909_1_alg».proof.Proof.Gen.Kernel
import proofs.«410100_j51196010168909_1_alg».proof.Proof.Gen.Kernel.Skeleton
import proofs.«410100_j51196010168909_1_alg».proof.Proof.Gen.Kernel.Launch
import proofs.«410100_j51196010168909_1_alg».proof.Proof.Gen.Kernel.Points
import proofs.«410100_j51196010168909_1_alg».proof.Proof.Gen.Kernel.Frame
import proofs.«410100_j51196010168909_1_alg».proof.Proof.Gen.KernelIdeal
import proofs.«410100_j51196010168909_1_alg».proof.Proof.Gen.KernelIdeal.Skeleton
import proofs.«410100_j51196010168909_1_alg».proof.Proof.Gen.KernelIdeal.Launch
import proofs.«410100_j51196010168909_1_alg».proof.Proof.Gen.KernelIdeal.Points
import proofs.«410100_j51196010168909_1_alg».proof.Proof.Gen.KernelIdeal.Frame
import proofs.«410100_j51196010168909_1_alg».proof.Proof.Gen.ReferenceIdeal
import proofs.«410100_j51196010168909_1_alg».proof.Proof.Gen.Pre_finite_inputs
import proofs.«410100_j51196010168909_1_alg».proof.Proof.KRun
import proofs.«410100_j51196010168909_1_alg».proof.Proof.RefRun
import proofs.«410100_j51196010168909_1_alg».proof.Proof.RefRead
import proofs.«410100_j51196010168909_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed runs and keeps its arguments: its frame certificate. -/
theorem frame_k : Cert.frame_Kernel := fun m ρ _ => Cert.Kernel.Gen.frame m ρ

/-- The idealized kernel program runs and keeps its arguments: its frame certificate. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel program's is the
    last boundary's contents at the result buffer, which is the reference's result term of the same arguments. -/
theorem algebraic : Cert.algebraic_KernelIdeal_ReferenceIdeal := by
  intro m ρ m' ρ' _ hagree
  refine ⟨fun c => Cert.KernelIdeal.Gen.W15 m ρ c (Proc.devRef .tc Cert.KernelIdeal.main_v69),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, (hagree c).1, (hagree c).2.1, (hagree c).2.2.1, (hagree c).2.2.2.1,
    (hagree c).2.2.2.2.1, (hagree c).2.2.2.2.2.1, (hagree c).2.2.2.2.2.2]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
